-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x26 : Shape := ⟨2, ![200000, 26]⟩
abbrev S6400000 : Shape := ⟨1, ![6400000]⟩
abbrev S26x40 : Shape := ⟨2, ![26, 40]⟩
abbrev S40 : Shape := ⟨1, ![40]⟩
abbrev S40x24 : Shape := ⟨2, ![40, 24]⟩
abbrev S24 : Shape := ⟨1, ![24]⟩
abbrev S_ : Shape := ⟨0, ![]⟩

class Facts : Prop where
  bcast_S_S200000x26 : S_.BroadcastsInDim S200000x26 (![] : Fin 0 → Fin S200000x26.rank)
  reducesTo_S200000x26_S_d0_1 : S200000x26.ReducesTo [0, 1] S_
  h_S_ : 0 < S_.numel
  bcast_S_S26x40 : S_.BroadcastsInDim S26x40 (![] : Fin 0 → Fin S26x40.rank)
  reducesTo_S26x40_S_d0_1 : S26x40.ReducesTo [0, 1] S_
  bcast_S_S40 : S_.BroadcastsInDim S40 (![] : Fin 0 → Fin S40.rank)
  reducesTo_S40_S_d0 : S40.ReducesTo [0] S_
  bcast_S_S40x24 : S_.BroadcastsInDim S40x24 (![] : Fin 0 → Fin S40x24.rank)
  reducesTo_S40x24_S_d0_1 : S40x24.ReducesTo [0, 1] S_
  bcast_S_S24 : S_.BroadcastsInDim S24 (![] : Fin 0 → Fin S24.rank)
  reducesTo_S24_S_d0 : S24.ReducesTo [0] S_

variable [Facts]

def fn_part1 {F : FTy → Type} [FloatOps F] (main_arg6 : FVec F S40x24 .f32) (main_arg7 : FVec F S40x24 .f32) (main_arg8 : FVec F S24 .f32) (main_v13 : IVec S_ 1) (main_v16 : IVec S40 1) : IVec S_ 1 :=
  let main_c_5 : IVec S_ 1 := constantI S_ 1 1#1
  let main_v17 : IVec S_ 1 := (fun x v => Host.reduce IntOp.andi x v reducesTo_S40_S_d0 h_S_) main_v16 main_c_5
  let main_v18 : IVec S_ 1 := andi main_v13 main_v17
  let main_v19 : FVec F S40x24 .f32 := Host.absf main_arg6
  let main_cst_6 : FVec F S_ .f32 := constant S_ .f32 0x7F800000#32
  let main_v20 : FVec F S40x24 .f32 := broadcastInDim S40x24 ![] bcast_S_S40x24 main_cst_6
  let main_v21 : IVec S40x24 1 := cmpf .olt main_v19 main_v20
  let main_c_7 : IVec S_ 1 := constantI S_ 1 1#1
  let main_v22 : IVec S_ 1 := (fun x v => Host.reduce IntOp.andi x v reducesTo_S40x24_S_d0_1 h_S_) main_v21 main_c_7
  let main_v23 : IVec S_ 1 := andi main_v18 main_v22
  let main_v24 : FVec F S40x24 .f32 := Host.absf main_arg7
  let main_cst_8 : FVec F S_ .f32 := constant S_ .f32 0x7F800000#32
  let main_v25 : FVec F S40x24 .f32 := broadcastInDim S40x24 ![] bcast_S_S40x24 main_cst_8
  let main_v26 : IVec S40x24 1 := cmpf .olt main_v24 main_v25
  let main_c_9 : IVec S_ 1 := constantI S_ 1 1#1
  let main_v27 : IVec S_ 1 := (fun x v => Host.reduce IntOp.andi x v reducesTo_S40x24_S_d0_1 h_S_) main_v26 main_c_9
  let main_v28 : IVec S_ 1 := andi main_v23 main_v27
  let main_v29 : FVec F S24 .f32 := Host.absf main_arg8
  let main_cst_10 : FVec F S_ .f32 := constant S_ .f32 0x7F800000#32
  let main_v30 : FVec F S24 .f32 := broadcastInDim S24 ![] bcast_S_S24 main_cst_10
  let main_v31 : IVec S24 1 := cmpf .olt main_v29 main_v30
  let main_c_11 : IVec S_ 1 := constantI S_ 1 1#1
  let main_v32 : IVec S_ 1 := (fun x v => Host.reduce IntOp.andi x v reducesTo_S24_S_d0 h_S_) main_v31 main_c_11
  let main_v33 : IVec S_ 1 := andi main_v28 main_v32
  main_v33

def fn {F : FTy → Type} [FloatOps F] (main_arg0 : FVec F S200000x26 .f32) (main_arg1 : IVec S6400000 32) (main_arg2 : IVec S6400000 32) (main_arg3 : FVec F S26x40 .f32) (main_arg4 : FVec F S26x40 .f32) (main_arg5 : FVec F S40 .f32) (main_arg6 : FVec F S40x24 .f32) (main_arg7 : FVec F S40x24 .f32) (main_arg8 : FVec F S24 .f32) : IVec S_ 1 :=
  let main_v0 : FVec F S200000x26 .f32 := Host.absf main_arg0
  let main_cst : FVec F S_ .f32 := constant S_ .f32 0x7F800000#32
  let main_v1 : FVec F S200000x26 .f32 := broadcastInDim S200000x26 ![] bcast_S_S200000x26 main_cst
  let main_v2 : IVec S200000x26 1 := cmpf .olt main_v0 main_v1
  let main_c : IVec S_ 1 := constantI S_ 1 1#1
  let main_v3 : IVec S_ 1 := (fun x v => Host.reduce IntOp.andi x v reducesTo_S200000x26_S_d0_1 h_S_) main_v2 main_c
  let main_v4 : FVec F S26x40 .f32 := Host.absf main_arg3
  let main_cst_0 : FVec F S_ .f32 := constant S_ .f32 0x7F800000#32
  let main_v5 : FVec F S26x40 .f32 := broadcastInDim S26x40 ![] bcast_S_S26x40 main_cst_0
  let main_v6 : IVec S26x40 1 := cmpf .olt main_v4 main_v5
  let main_c_1 : IVec S_ 1 := constantI S_ 1 1#1
  let main_v7 : IVec S_ 1 := (fun x v => Host.reduce IntOp.andi x v reducesTo_S26x40_S_d0_1 h_S_) main_v6 main_c_1
  let main_v8 : IVec S_ 1 := andi main_v3 main_v7
  let main_v9 : FVec F S26x40 .f32 := Host.absf main_arg4
  let main_cst_2 : FVec F S_ .f32 := constant S_ .f32 0x7F800000#32
  let main_v10 : FVec F S26x40 .f32 := broadcastInDim S26x40 ![] bcast_S_S26x40 main_cst_2
  let main_v11 : IVec S26x40 1 := cmpf .olt main_v9 main_v10
  let main_c_3 : IVec S_ 1 := constantI S_ 1 1#1
  let main_v12 : IVec S_ 1 := (fun x v => Host.reduce IntOp.andi x v reducesTo_S26x40_S_d0_1 h_S_) main_v11 main_c_3
  let main_v13 : IVec S_ 1 := andi main_v8 main_v12
  let main_v14 : FVec F S40 .f32 := Host.absf main_arg5
  let main_cst_4 : FVec F S_ .f32 := constant S_ .f32 0x7F800000#32
  let main_v15 : FVec F S40 .f32 := broadcastInDim S40 ![] bcast_S_S40 main_cst_4
  let main_v16 : IVec S40 1 := cmpf .olt main_v14 main_v15
  fn_part1 (F := F) main_arg6 main_arg7 main_arg8 main_v13 main_v16
-- ==== Kernel.lean ====
abbrev S200000x26 : Shape := ⟨2, ![200000, 26]⟩
abbrev S6400000 : Shape := ⟨1, ![6400000]⟩
abbrev S26x40 : Shape := ⟨2, ![26, 40]⟩
abbrev S40 : Shape := ⟨1, ![40]⟩
abbrev S40x24 : Shape := ⟨2, ![40, 24]⟩
abbrev S24 : Shape := ⟨1, ![24]⟩
abbrev S_ : Shape := ⟨0, ![]⟩
abbrev S200000 : Shape := ⟨1, ![200000]⟩
abbrev S6400000x1 : Shape := ⟨2, ![6400000, 1]⟩
abbrev S6400000x26 : Shape := ⟨2, ![6400000, 26]⟩
abbrev S200000x1 : Shape := ⟨2, ![200000, 1]⟩
abbrev S1x40 : Shape := ⟨2, ![1, 40]⟩
abbrev S200000x40 : Shape := ⟨2, ![200000, 40]⟩
abbrev S20000x26 : Shape := ⟨2, ![20000, 26]⟩
abbrev S20000x40 : Shape := ⟨2, ![20000, 40]⟩
abbrev S6400000x40 : Shape := ⟨2, ![6400000, 40]⟩
abbrev S1x24 : Shape := ⟨2, ![1, 24]⟩
abbrev S200000x24 : Shape := ⟨2, ![200000, 24]⟩
abbrev S20000x24 : Shape := ⟨2, ![20000, 24]⟩
abbrev S20000 : Shape := ⟨1, ![20000]⟩
abbrev S20000x1 : Shape := ⟨2, ![20000, 1]⟩

abbrev nBuf : Space → Nat
  | .hbm => 64
  | .vmem => 18
  | .smem => 0
  | _ => 0

abbrev bufTy : (tb : Table) → Fin (tcTables nBuf tb) → BufTy
  | .hbm, ⟨0, _⟩ => ⟨S200000x26, .f32⟩
  | .hbm, ⟨1, _⟩ => ⟨S6400000, .i32⟩
  | .hbm, ⟨2, _⟩ => ⟨S6400000, .i32⟩
  | .hbm, ⟨3, _⟩ => ⟨S26x40, .f32⟩
  | .hbm, ⟨4, _⟩ => ⟨S26x40, .f32⟩
  | .hbm, ⟨5, _⟩ => ⟨S40, .f32⟩
  | .hbm, ⟨6, _⟩ => ⟨S40x24, .f32⟩
  | .hbm, ⟨7, _⟩ => ⟨S40x24, .f32⟩
  | .hbm, ⟨8, _⟩ => ⟨S24, .f32⟩
  | .hbm, ⟨9, _⟩ => ⟨S_, .f32⟩
  | .hbm, ⟨10, _⟩ => ⟨S6400000, .f32⟩
  | .hbm, ⟨11, _⟩ => ⟨S_, .f32⟩
  | .hbm, ⟨12, _⟩ => ⟨S200000, .f32⟩
  | .hbm, ⟨13, _⟩ => ⟨S6400000x1, .i32⟩
  | .hbm, ⟨14, _⟩ => ⟨S200000, .f32⟩
  | .hbm, ⟨15, _⟩ => ⟨S_, .f32⟩
  | .hbm, ⟨16, _⟩ => ⟨S200000, .f32⟩
  | .hbm, ⟨17, _⟩ => ⟨S200000, .i1⟩
  | .hbm, ⟨18, _⟩ => ⟨S_, .f32⟩
  | .hbm, ⟨19, _⟩ => ⟨S200000, .f32⟩
  | .hbm, ⟨20, _⟩ => ⟨S200000, .f32⟩
  | .hbm, ⟨21, _⟩ => ⟨S_, .f32⟩
  | .hbm, ⟨22, _⟩ => ⟨S200000, .f32⟩
  | .hbm, ⟨23, _⟩ => ⟨S200000, .f32⟩
  | .hbm, ⟨24, _⟩ => ⟨S_, .f32⟩
  | .hbm, ⟨25, _⟩ => ⟨S_, .f32⟩
  | .hbm, ⟨26, _⟩ => ⟨S200000, .f32⟩
  | .hbm, ⟨27, _⟩ => ⟨S200000, .f32⟩
  | .hbm, ⟨28, _⟩ => ⟨S_, .i32⟩
  | .hbm, ⟨29, _⟩ => ⟨S6400000, .i32⟩
  | .hbm, ⟨30, _⟩ => ⟨S6400000, .i1⟩
  | .hbm, ⟨31, _⟩ => ⟨S_, .i32⟩
  | .hbm, ⟨32, _⟩ => ⟨S6400000, .i32⟩
  | .hbm, ⟨33, _⟩ => ⟨S6400000, .i32⟩
  | .hbm, ⟨34, _⟩ => ⟨S6400000, .i32⟩
  | .hbm, ⟨35, _⟩ => ⟨S6400000x1, .i32⟩
  | .hbm, ⟨36, _⟩ => ⟨S6400000x26, .f32⟩
  | .hbm, ⟨37, _⟩ => ⟨S_, .f32⟩
  | .hbm, ⟨38, _⟩ => ⟨S200000x26, .f32⟩
  | .hbm, ⟨39, _⟩ => ⟨S6400000x1, .i32⟩
  | .hbm, ⟨40, _⟩ => ⟨S200000x26, .f32⟩
  | .hbm, ⟨41, _⟩ => ⟨S200000x1, .f32⟩
  | .hbm, ⟨42, _⟩ => ⟨S200000x26, .f32⟩
  | .hbm, ⟨43, _⟩ => ⟨S200000x26, .f32⟩
  | .hbm, ⟨44, _⟩ => ⟨S1x40, .f32⟩
  | .hbm, ⟨45, _⟩ => ⟨S200000x40, .f32⟩
  | .hbm, ⟨46, _⟩ => ⟨S_, .i32⟩
  | .hbm, ⟨47, _⟩ => ⟨S6400000, .i32⟩
  | .hbm, ⟨48, _⟩ => ⟨S6400000, .i1⟩
  | .hbm, ⟨49, _⟩ => ⟨S_, .i32⟩
  | .hbm, ⟨50, _⟩ => ⟨S6400000, .i32⟩
  | .hbm, ⟨51, _⟩ => ⟨S6400000, .i32⟩
  | .hbm, ⟨52, _⟩ => ⟨S6400000, .i32⟩
  | .hbm, ⟨53, _⟩ => ⟨S6400000x1, .i32⟩
  | .hbm, ⟨54, _⟩ => ⟨S6400000x40, .f32⟩
  | .hbm, ⟨55, _⟩ => ⟨S_, .f32⟩
  | .hbm, ⟨56, _⟩ => ⟨S200000x40, .f32⟩
  | .hbm, ⟨57, _⟩ => ⟨S6400000x1, .i32⟩
  | .hbm, ⟨58, _⟩ => ⟨S200000x40, .f32⟩
  | .hbm, ⟨59, _⟩ => ⟨S200000x1, .f32⟩
  | .hbm, ⟨60, _⟩ => ⟨S200000x40, .f32⟩
  | .hbm, ⟨61, _⟩ => ⟨S200000x40, .f32⟩
  | .hbm, ⟨62, _⟩ => ⟨S1x24, .f32⟩
  | .hbm, ⟨63, _⟩ => ⟨S200000x24, .f32⟩
  | .local _ .vmem, ⟨0, _⟩ => ⟨S20000x26, .f32⟩
  | .local _ .vmem, ⟨1, _⟩ => ⟨S20000x26, .f32⟩
  | .local _ .vmem, ⟨2, _⟩ => ⟨S20000x26, .f32⟩
  | .local _ .vmem, ⟨3, _⟩ => ⟨S20000x26, .f32⟩
  | .local _ .vmem, ⟨4, _⟩ => ⟨S26x40, .f32⟩
  | .local _ .vmem, ⟨5, _⟩ => ⟨S26x40, .f32⟩
  | .local _ .vmem, ⟨6, _⟩ => ⟨S1x40, .f32⟩
  | .local _ .vmem, ⟨7, _⟩ => ⟨S20000x40, .f32⟩
  | .local _ .vmem, ⟨8, _⟩ => ⟨S20000x40, .f32⟩
  | .local _ .vmem, ⟨9, _⟩ => ⟨S20000x40, .f32⟩
  | .local _ .vmem, ⟨10, _⟩ => ⟨S20000x40, .f32⟩
  | .local _ .vmem, ⟨11, _⟩ => ⟨S20000x40, .f32⟩
  | .local _ .vmem, ⟨12, _⟩ => ⟨S20000x40, .f32⟩
  | .local _ .vmem, ⟨13, _⟩ => ⟨S40x24, .f32⟩
  | .local _ .vmem, ⟨14, _⟩ => ⟨S40x24, .f32⟩
  | .local _ .vmem, ⟨15, _⟩ => ⟨S1x24, .f32⟩
  | .local _ .vmem, ⟨16, _⟩ => ⟨S20000x24, .f32⟩
  | .local _ .vmem, ⟨17, _⟩ => ⟨S20000x24, .f32⟩
  | _, _ => ⟨S200000x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_c_8 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x26 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x26 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S26x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S26x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S20000x40 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x40 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S40x24 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S40x24 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x24 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S20000x24 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  bcast_S_S200000x26 : S_.BroadcastsInDim S200000x26 (![] : Fin 0 → Fin S200000x26.rank)
  bcast_S200000_S200000x1_0 : S200000.BroadcastsInDim S200000x1 (![0] : Fin 1 → Fin S200000x1.rank)
  bcast_S200000x1_S200000x26_0_1 : S200000x1.BroadcastsInDim S200000x26 (![0, 1] : Fin 2 → Fin S200000x26.rank)
  shapeCasts_S40_S1x40 : S40.ShapeCasts S1x40
  inb_S20000x26_S20000x26_0_0 : ∀ a, (![0, 0] : Fin 2 → Nat) a + S20000x26.size a ≤ S20000x26.size a
  h_S20000x26 : 0 < S20000x26.numel
  bitsLt_bf16_f32 : FTy.bits .bf16 < FTy.bits .f32
  shapeCasts_S20000x26_S20000x26 : S20000x26.ShapeCasts S20000x26
  inb_S26x40_S26x40_0_0 : ∀ a, (![0, 0] : Fin 2 → Nat) a + S26x40.size a ≤ S26x40.size a
  h_S26x40 : 0 < S26x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S20000x40 : S1x40.Broadcasts S20000x40
  inb_S20000x40_S20000x40_0_0 : ∀ a, (![0, 0] : Fin 2 → Nat) a + S20000x40.size a ≤ S20000x40.size a
  h_S20000x40 : 0 < S20000x40.numel
  bcast_S_S200000x40 : S_.BroadcastsInDim S200000x40 (![] : Fin 0 → Fin S200000x40.rank)
  bcast_S200000x1_S200000x40_0_1 : S200000x1.BroadcastsInDim S200000x40 (![0, 1] : Fin 2 → Fin S200000x40.rank)
  shapeCasts_S24_S1x24 : S24.ShapeCasts S1x24
  shapeCasts_S20000x40_S20000x40 : S20000x40.ShapeCasts S20000x40
  inb_S40x24_S40x24_0_0 : ∀ a, (![0, 0] : Fin 2 → Nat) a + S40x24.size a ≤ S40x24.size a
  h_S40x24 : 0 < S40x24.numel
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S20000x24 : S1x24.Broadcasts S20000x24
  reduces_S20000x24_S20000 : S20000x24.Reduces [1] S20000
  shapeCasts_S20000_S20000x1 : S20000.ShapeCasts S20000x1
  broadcasts_S20000x1_S20000x24 : S20000x1.Broadcasts S20000x24
  inb_S20000x24_S20000x24_0_0 : ∀ a, (![0, 0] : Fin 2 → Nat) a + S20000x24.size a ≤ S20000x24.size a
  h_S20000x24 : 0 < S20000x24.numel
  scatter_S200000_S6400000x1_S6400000_n_0_0_1_wf : ScatterDims.WF S200000 S6400000x1 S6400000 [] [0] [0] 1
  gather_S200000x26_S6400000x1_S6400000x26_1_0_n_n_0_1_126_wf : GatherDims.WF S200000x26 S6400000x1 S6400000x26 [1] [0] [] [0] [] 1 ![1, 26]
  scatter_S200000x26_S6400000x1_S6400000x26_1_0_0_1_wf : ScatterDims.WF S200000x26 S6400000x1 S6400000x26 [1] [0] [0] 1
  dot_S20000x26_S26x40_S20000x40_1_0_0_1_n_n_wf : DotDims.WF S20000x26 S26x40 S20000x40 [1] [0] [0] [1] [] []
  gather_S200000x40_S6400000x1_S6400000x40_1_0_n_n_0_1_140_wf : GatherDims.WF S200000x40 S6400000x1 S6400000x40 [1] [0] [] [0] [] 1 ![1, 40]
  scatter_S200000x40_S6400000x1_S6400000x40_1_0_0_1_wf : ScatterDims.WF S200000x40 S6400000x1 S6400000x40 [1] [0] [0] 1
  dot_S20000x40_S40x24_S20000x24_1_0_0_1_n_n_wf : DotDims.WF S20000x40 S40x24 S20000x24 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x26.size a ≤ S200000x26.size a
  hwx0_0 : ∀ i : grid0.Coords, EltTy.bits .f32 = 32 ∨ (Rect.block (s := S200000x26) S20000x26.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x26.size a ≤ S200000x26.size a
  hwx0_1 : ∀ i : grid0.Coords, EltTy.bits .f32 = 32 ∨ (Rect.block (s := S200000x26) S20000x26.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S26x40.size a ≤ S26x40.size a
  hwx0_2 : ∀ i : grid0.Coords, EltTy.bits .f32 = 32 ∨ (Rect.block (s := S26x40) S26x40.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S26x40.size a ≤ S26x40.size a
  hwx0_3 : ∀ i : grid0.Coords, EltTy.bits .f32 = 32 ∨ (Rect.block (s := S26x40) S26x40.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x40.size a ≤ S1x40.size a
  hwx0_4 : ∀ i : grid0.Coords, EltTy.bits .f32 = 32 ∨ (Rect.block (s := S1x40) S1x40.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S20000x40.size a ≤ S200000x40.size a
  hwx0_5 : ∀ i : grid0.Coords, EltTy.bits .f32 = 32 ∨ (Rect.block (s := S200000x40) S20000x40.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x40.size a ≤ S200000x40.size a
  hwx1_0 : ∀ i : grid1.Coords, EltTy.bits .f32 = 32 ∨ (Rect.block (s := S200000x40) S20000x40.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x40.size a ≤ S200000x40.size a
  hwx1_1 : ∀ i : grid1.Coords, EltTy.bits .f32 = 32 ∨ (Rect.block (s := S200000x40) S20000x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S40x24.size a ≤ S40x24.size a
  hwx1_2 : ∀ i : grid1.Coords, EltTy.bits .f32 = 32 ∨ (Rect.block (s := S40x24) S40x24.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S40x24.size a ≤ S40x24.size a
  hwx1_3 : ∀ i : grid1.Coords, EltTy.bits .f32 = 32 ∨ (Rect.block (s := S40x24) S40x24.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x24.size a ≤ S1x24.size a
  hwx1_4 : ∀ i : grid1.Coords, EltTy.bits .f32 = 32 ∨ (Rect.block (s := S1x24) S1x24.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S20000x24.size a ≤ S200000x24.size a
  hwx1_5 : ∀ i : grid1.Coords, EltTy.bits .f32 = 32 ∨ (Rect.block (s := S200000x24) S20000x24.size (cc1_transform_5 i) (hinb1_5 i)).WholeWords (EltTy.packing .f32)

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000x26_S6400000x1_S6400000x26_1_0_n_n_0_1_126 : GatherDims S200000x26 S6400000x1 S6400000x26 where
  offsetDims := [1]
  collapsedSliceDims := [0]
  operandBatchingDims := []
  startIndicesBatchingDims := []
  startIndexMap := [0]
  indexVectorDim := 1
  sliceSizes := ![1, 26]
  wf := gather_S200000x26_S6400000x1_S6400000x26_1_0_n_n_0_1_126_wf
def scatter_S200000x26_S6400000x1_S6400000x26_1_0_0_1 : ScatterDims S200000x26 S6400000x1 S6400000x26 where
  updateWindowDims := [1]
  insertedWindowDims := [0]
  scatterDimsToOperandDims := [0]
  indexVectorDim := 1
  wf := scatter_S200000x26_S6400000x1_S6400000x26_1_0_0_1_wf
def dot_S20000x26_S26x40_S20000x40_1_0_0_1_n_n : DotDims S20000x26 S26x40 S20000x40 where
  lhsContracting := [1]
  rhsContracting := [0]
  lhsNonContracting := [0]
  rhsNonContracting := [1]
  lhsBatch := []
  rhsBatch := []
  wf := dot_S20000x26_S26x40_S20000x40_1_0_0_1_n_n_wf
def gather_S200000x40_S6400000x1_S6400000x40_1_0_n_n_0_1_140 : GatherDims S200000x40 S6400000x1 S6400000x40 where
  offsetDims := [1]
  collapsedSliceDims := [0]
  operandBatchingDims := []
  startIndicesBatchingDims := []
  startIndexMap := [0]
  indexVectorDim := 1
  sliceSizes := ![1, 40]
  wf := gather_S200000x40_S6400000x1_S6400000x40_1_0_n_n_0_1_140_wf
def scatter_S200000x40_S6400000x1_S6400000x40_1_0_0_1 : ScatterDims S200000x40 S6400000x1 S6400000x40 where
  updateWindowDims := [1]
  insertedWindowDims := [0]
  scatterDimsToOperandDims := [0]
  indexVectorDim := 1
  wf := scatter_S200000x40_S6400000x1_S6400000x40_1_0_0_1_wf
def dot_S20000x40_S40x24_S20000x24_1_0_0_1_n_n : DotDims S20000x40 S40x24 S20000x24 where
  lhsContracting := [1]
  rhsContracting := [0]
  lhsNonContracting := [0]
  rhsNonContracting := [1]
  lhsBatch := []
  rhsBatch := []
  wf := dot_S20000x40_S40x24_S20000x24_1_0_0_1_n_n_wf

abbrev win0_0 : Pipeline.Window sig grid0 :=
  Pipeline.Window.ofSpec (Memref.whole main_arg0) S20000x26.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S20000x26.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S26x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S26x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S20000x40.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S20000x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S20000x40.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S40x24.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S40x24.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x24.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S20000x24.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S200000x26 : Shape := ⟨2, ![200000, 26]⟩
abbrev S6400000 : Shape := ⟨1, ![6400000]⟩
abbrev S26x40 : Shape := ⟨2, ![26, 40]⟩
abbrev S40 : Shape := ⟨1, ![40]⟩
abbrev S40x24 : Shape := ⟨2, ![40, 24]⟩
abbrev S24 : Shape := ⟨1, ![24]⟩
abbrev S_ : Shape := ⟨0, ![]⟩
abbrev S200000 : Shape := ⟨1, ![200000]⟩
abbrev S6400000x1 : Shape := ⟨2, ![6400000, 1]⟩
abbrev S6400000x26 : Shape := ⟨2, ![6400000, 26]⟩
abbrev S200000x1 : Shape := ⟨2, ![200000, 1]⟩
abbrev S200000x40 : Shape := ⟨2, ![200000, 40]⟩
abbrev S1x40 : Shape := ⟨2, ![1, 40]⟩
abbrev S6400000x40 : Shape := ⟨2, ![6400000, 40]⟩
abbrev S200000x24 : Shape := ⟨2, ![200000, 24]⟩
abbrev S1x24 : Shape := ⟨2, ![1, 24]⟩

abbrev nBuf : Space → Nat
  | .hbm => 90
  | .vmem => 0
  | .smem => 0
  | _ => 0

abbrev bufTy : (tb : Table) → Fin (tcTables nBuf tb) → BufTy
  | .hbm, ⟨0, _⟩ => ⟨S200000x26, .f32⟩
  | .hbm, ⟨1, _⟩ => ⟨S6400000, .i32⟩
  | .hbm, ⟨2, _⟩ => ⟨S6400000, .i32⟩
  | .hbm, ⟨3, _⟩ => ⟨S26x40, .f32⟩
  | .hbm, ⟨4, _⟩ => ⟨S26x40, .f32⟩
  | .hbm, ⟨5, _⟩ => ⟨S40, .f32⟩
  | .hbm, ⟨6, _⟩ => ⟨S40x24, .f32⟩
  | .hbm, ⟨7, _⟩ => ⟨S40x24, .f32⟩
  | .hbm, ⟨8, _⟩ => ⟨S24, .f32⟩
  | .hbm, ⟨9, _⟩ => ⟨S_, .f32⟩
  | .hbm, ⟨10, _⟩ => ⟨S6400000, .f32⟩
  | .hbm, ⟨11, _⟩ => ⟨S_, .f32⟩
  | .hbm, ⟨12, _⟩ => ⟨S200000, .f32⟩
  | .hbm, ⟨13, _⟩ => ⟨S6400000x1, .i32⟩
  | .hbm, ⟨14, _⟩ => ⟨S200000, .f32⟩
  | .hbm, ⟨15, _⟩ => ⟨S_, .f32⟩
  | .hbm, ⟨16, _⟩ => ⟨S200000, .f32⟩
  | .hbm, ⟨17, _⟩ => ⟨S200000, .i1⟩
  | .hbm, ⟨18, _⟩ => ⟨S_, .f32⟩
  | .hbm, ⟨19, _⟩ => ⟨S200000, .f32⟩
  | .hbm, ⟨20, _⟩ => ⟨S200000, .f32⟩
  | .hbm, ⟨21, _⟩ => ⟨S_, .f32⟩
  | .hbm, ⟨22, _⟩ => ⟨S200000, .f32⟩
  | .hbm, ⟨23, _⟩ => ⟨S200000, .f32⟩
  | .hbm, ⟨24, _⟩ => ⟨S_, .f32⟩
  | .hbm, ⟨25, _⟩ => ⟨S_, .f32⟩
  | .hbm, ⟨26, _⟩ => ⟨S200000, .f32⟩
  | .hbm, ⟨27, _⟩ => ⟨S200000, .f32⟩
  | .hbm, ⟨28, _⟩ => ⟨S_, .i32⟩
  | .hbm, ⟨29, _⟩ => ⟨S6400000, .i32⟩
  | .hbm, ⟨30, _⟩ => ⟨S6400000, .i1⟩
  | .hbm, ⟨31, _⟩ => ⟨S_, .i32⟩
  | .hbm, ⟨32, _⟩ => ⟨S6400000, .i32⟩
  | .hbm, ⟨33, _⟩ => ⟨S6400000, .i32⟩
  | .hbm, ⟨34, _⟩ => ⟨S6400000, .i32⟩
  | .hbm, ⟨35, _⟩ => ⟨S6400000x1, .i32⟩
  | .hbm, ⟨36, _⟩ => ⟨S6400000x26, .f32⟩
  | .hbm, ⟨37, _⟩ => ⟨S_, .f32⟩
  | .hbm, ⟨38, _⟩ => ⟨S200000x26, .f32⟩
  | .hbm, ⟨39, _⟩ => ⟨S6400000x1, .i32⟩
  | .hbm, ⟨40, _⟩ => ⟨S200000x26, .f32⟩
  | .hbm, ⟨41, _⟩ => ⟨S200000x1, .f32⟩
  | .hbm, ⟨42, _⟩ => ⟨S200000x26, .f32⟩
  | .hbm, ⟨43, _⟩ => ⟨S200000x26, .f32⟩
  | .hbm, ⟨44, _⟩ => ⟨S200000x40, .f32⟩
  | .hbm, ⟨45, _⟩ => ⟨S200000x40, .f32⟩
  | .hbm, ⟨46, _⟩ => ⟨S200000x40, .f32⟩
  | .hbm, ⟨47, _⟩ => ⟨S1x40, .f32⟩
  | .hbm, ⟨48, _⟩ => ⟨S200000x40, .f32⟩
  | .hbm, ⟨49, _⟩ => ⟨S200000x40, .f32⟩
  | .hbm, ⟨50, _⟩ => ⟨S_, .f32⟩
  | .hbm, ⟨51, _⟩ => ⟨S200000x40, .f32⟩
  | .hbm, ⟨52, _⟩ => ⟨S200000x40, .f32⟩
  | .hbm, ⟨53, _⟩ => ⟨S_, .i32⟩
  | .hbm, ⟨54, _⟩ => ⟨S6400000, .i32⟩
  | .hbm, ⟨55, _⟩ => ⟨S6400000, .i1⟩
  | .hbm, ⟨56, _⟩ => ⟨S_, .i32⟩
  | .hbm, ⟨57, _⟩ => ⟨S6400000, .i32⟩
  | .hbm, ⟨58, _⟩ => ⟨S6400000, .i32⟩
  | .hbm, ⟨59, _⟩ => ⟨S6400000, .i32⟩
  | .hbm, ⟨60, _⟩ => ⟨S6400000x1, .i32⟩
  | .hbm, ⟨61, _⟩ => ⟨S6400000x40, .f32⟩
  | .hbm, ⟨62, _⟩ => ⟨S_, .f32⟩
  | .hbm, ⟨63, _⟩ => ⟨S200000x40, .f32⟩
  | .hbm, ⟨64, _⟩ => ⟨S6400000x1, .i32⟩
  | .hbm, ⟨65, _⟩ => ⟨S200000x40, .f32⟩
  | .hbm, ⟨66, _⟩ => ⟨S200000x1, .f32⟩
  | .hbm, ⟨67, _⟩ => ⟨S200000x40, .f32⟩
  | .hbm, ⟨68, _⟩ => ⟨S200000x40, .f32⟩
  | .hbm, ⟨69, _⟩ => ⟨S200000x24, .f32⟩
  | .hbm, ⟨70, _⟩ => ⟨S200000x24, .f32⟩
  | .hbm, ⟨71, _⟩ => ⟨S200000x24, .f32⟩
  | .hbm, ⟨72, _⟩ => ⟨S1x24, .f32⟩
  | .hbm, ⟨73, _⟩ => ⟨S200000x24, .f32⟩
  | .hbm, ⟨74, _⟩ => ⟨S200000x24, .f32⟩
  | .hbm, ⟨75, _⟩ => ⟨S_, .f32⟩
  | .hbm, ⟨76, _⟩ => ⟨S200000, .f32⟩
  | .hbm, ⟨77, _⟩ => ⟨S_, .f32⟩
  | .hbm, ⟨78, _⟩ => ⟨S200000, .f32⟩
  | .hbm, ⟨79, _⟩ => ⟨S200000, .f32⟩
  | .hbm, ⟨80, _⟩ => ⟨S200000x1, .f32⟩
  | .hbm, ⟨81, _⟩ => ⟨S200000x24, .f32⟩
  | .hbm, ⟨82, _⟩ => ⟨S200000x24, .f32⟩
  | .hbm, ⟨83, _⟩ => ⟨S200000x24, .f32⟩
  | .hbm, ⟨84, _⟩ => ⟨S_, .f32⟩
  | .hbm, ⟨85, _⟩ => ⟨S200000, .f32⟩
  | .hbm, ⟨86, _⟩ => ⟨S200000x1, .f32⟩
  | .hbm, ⟨87, _⟩ => ⟨S200000x1, .f32⟩
  | .hbm, ⟨88, _⟩ => ⟨S200000x24, .f32⟩
  | .hbm, ⟨89, _⟩ => ⟨S200000x24, .f32⟩
  | _, _ => ⟨S200000x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call1_cst : Ref sig .tc := ⟨.hbm, 50, rfl⟩
abbrev main_call1_v0 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call2_cst : Ref sig .tc := ⟨.hbm, 75, rfl⟩
abbrev main_call2_v0 : Ref sig .tc := ⟨.hbm, 76, rfl⟩
abbrev main_call2_cst_0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_v6 : Ref sig .tc := ⟨.hbm, 83, rfl⟩
abbrev main_call2_cst_1 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_v50 : Ref sig .tc := ⟨.hbm, 89, rfl⟩

abbrev nD : Nat := 1
abbrev τ : Topo := Topo.v7x

variable {F : FTy → Type} [FloatOps F]

class Facts₀ : Prop where
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  bcast_S_S200000x26 : S_.BroadcastsInDim S200000x26 (![] : Fin 0 → Fin S200000x26.rank)
  bcast_S200000_S200000x1_0 : S200000.BroadcastsInDim S200000x1 (![0] : Fin 1 → Fin S200000x1.rank)
  bcast_S200000x1_S200000x26_0_1 : S200000x1.BroadcastsInDim S200000x26 (![0, 1] : Fin 2 → Fin S200000x26.rank)
  bcast_S40_S1x40_1 : S40.BroadcastsInDim S1x40 (![1] : Fin 1 → Fin S1x40.rank)
  bcast_S1x40_S200000x40_0_1 : S1x40.BroadcastsInDim S200000x40 (![0, 1] : Fin 2 → Fin S200000x40.rank)
  bcast_S_S200000x40 : S_.BroadcastsInDim S200000x40 (![] : Fin 0 → Fin S200000x40.rank)
  bcast_S200000x1_S200000x40_0_1 : S200000x1.BroadcastsInDim S200000x40 (![0, 1] : Fin 2 → Fin S200000x40.rank)
  bcast_S24_S1x24_1 : S24.BroadcastsInDim S1x24 (![1] : Fin 1 → Fin S1x24.rank)
  bcast_S1x24_S200000x24_0_1 : S1x24.BroadcastsInDim S200000x24 (![0, 1] : Fin 2 → Fin S200000x24.rank)
  reducesTo_S200000x24_S200000_d1 : S200000x24.ReducesTo [1] S200000
  h_S_ : 0 < S_.numel
  bcast_S200000x1_S200000x24_0_1 : S200000x1.BroadcastsInDim S200000x24 (![0, 1] : Fin 2 → Fin S200000x24.rank)
  scatter_S200000_S6400000x1_S6400000_n_0_0_1_wf : ScatterDims.WF S200000 S6400000x1 S6400000 [] [0] [0] 1
  gather_S200000x26_S6400000x1_S6400000x26_1_0_n_n_0_1_126_wf : GatherDims.WF S200000x26 S6400000x1 S6400000x26 [1] [0] [] [0] [] 1 ![1, 26]
  scatter_S200000x26_S6400000x1_S6400000x26_1_0_0_1_wf : ScatterDims.WF S200000x26 S6400000x1 S6400000x26 [1] [0] [0] 1
  dot_S200000x26_S26x40_S200000x40_1_0_0_1_n_n_wf : DotDims.WF S200000x26 S26x40 S200000x40 [1] [0] [0] [1] [] []
  gather_S200000x40_S6400000x1_S6400000x40_1_0_n_n_0_1_140_wf : GatherDims.WF S200000x40 S6400000x1 S6400000x40 [1] [0] [] [0] [] 1 ![1, 40]
  scatter_S200000x40_S6400000x1_S6400000x40_1_0_0_1_wf : ScatterDims.WF S200000x40 S6400000x1 S6400000x40 [1] [0] [0] 1
  dot_S200000x40_S40x24_S200000x24_1_0_0_1_n_n_wf : DotDims.WF S200000x40 S40x24 S200000x24 [1] [0] [0] [1] [] []

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000x26_S6400000x1_S6400000x26_1_0_n_n_0_1_126 : GatherDims S200000x26 S6400000x1 S6400000x26 where
  offsetDims := [1]
  collapsedSliceDims := [0]
  operandBatchingDims := []
  startIndicesBatchingDims := []
  startIndexMap := [0]
  indexVectorDim := 1
  sliceSizes := ![1, 26]
  wf := gather_S200000x26_S6400000x1_S6400000x26_1_0_n_n_0_1_126_wf
def scatter_S200000x26_S6400000x1_S6400000x26_1_0_0_1 : ScatterDims S200000x26 S6400000x1 S6400000x26 where
  updateWindowDims := [1]
  insertedWindowDims := [0]
  scatterDimsToOperandDims := [0]
  indexVectorDim := 1
  wf := scatter_S200000x26_S6400000x1_S6400000x26_1_0_0_1_wf
def dot_S200000x26_S26x40_S200000x40_1_0_0_1_n_n : DotDims S200000x26 S26x40 S200000x40 where
  lhsContracting := [1]
  rhsContracting := [0]
  lhsNonContracting := [0]
  rhsNonContracting := [1]
  lhsBatch := []
  rhsBatch := []
  wf := dot_S200000x26_S26x40_S200000x40_1_0_0_1_n_n_wf
def gather_S200000x40_S6400000x1_S6400000x40_1_0_n_n_0_1_140 : GatherDims S200000x40 S6400000x1 S6400000x40 where
  offsetDims := [1]
  collapsedSliceDims := [0]
  operandBatchingDims := []
  startIndicesBatchingDims := []
  startIndexMap := [0]
  indexVectorDim := 1
  sliceSizes := ![1, 40]
  wf := gather_S200000x40_S6400000x1_S6400000x40_1_0_n_n_0_1_140_wf
def scatter_S200000x40_S6400000x1_S6400000x40_1_0_0_1 : ScatterDims S200000x40 S6400000x1 S6400000x40 where
  updateWindowDims := [1]
  insertedWindowDims := [0]
  scatterDimsToOperandDims := [0]
  indexVectorDim := 1
  wf := scatter_S200000x40_S6400000x1_S6400000x40_1_0_0_1_wf
def dot_S200000x40_S40x24_S200000x24_1_0_0_1_n_n : DotDims S200000x40 S40x24 S200000x24 where
  lhsContracting := [1]
  rhsContracting := [0]
  lhsNonContracting := [0]
  rhsNonContracting := [1]
  lhsBatch := []
  rhsBatch := []
  wf := dot_S200000x40_S40x24_S200000x24_1_0_0_1_n_n_wf

class Facts : Prop extends Facts₀ where

variable [Facts]
-- ==== Proof.RefStages.lean ====
/- The reference's result as a function of its arguments, read stretch by stretch.
   The reference's @main is a straight line of 81 host operations; after it, its result buffer holds the operations'
   fold over the launch contents. Cut at the buffers that later operations still read — the reciprocal in-degree, layer 1's
   neighbour means, the hidden layer, layer 2's neighbour means, the pre-softmax sums, and four intermediate values of
   the log-softmax (row maximum, its clamp, the shifted sums, the row sums of exponentials) — each stretch's last
   buffer is the corresponding stage function of the arguments (the stage functions `val_main_vN` compose exactly the
   operations of the stretch over the stage before), given that the buffers the stretch reads hold their stages; no
   stretch writes a buffer an earlier one left for a later one. Chained, the fold at the result buffer is the last
   stage, `val_main_v50`, of the launch contents of the nine arguments. Stated over an arbitrary valuation and any
   float family: nothing here opens a gather, a scatter or a sum. -/
import proofs.«164080_j25606595019232_1_alg».proof.Proof.RefReadPatched
import Idealize.ShloMosaic.Lib.StableHlo.Run
import Idealize.ShloMosaic.Lib.Pipeline.Frame

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.RunP Cert.ReferenceIdeal.ReadP

variable {F : FTy → Type} [FloatOps F]

/-- Stretch A: the reciprocal in-degree, from the destination indices. -/
theorem stageA (V : Valuation τ sig (Elt F)) :
    StableHlo.after opsA V (Proc.devRef .tc main_v10) = val_main_v10 (F := F) (V (Proc.devRef .tc main_arg2)) := by
  after_results_simp
  try simp only [TRef.ofBuf, TRef.toBuf, cast_eq]
  rfl

/-- Stretch B: layer 1's neighbour means, from the features, the two index arrays and the reciprocal in-degree. -/
theorem stageB (V : Valuation τ sig (Elt F)) (x0 : (⟨S200000x26, .f32⟩ : BufTy).Contents (Elt F)) (x1 x2 : (⟨S6400000, .i32⟩ : BufTy).Contents (Elt F))
    (h0 : V (Proc.devRef .tc main_arg0) = x0) (h1 : V (Proc.devRef .tc main_arg1) = x1) (h2 : V (Proc.devRef .tc main_arg2) = x2)
    (h10 : V (Proc.devRef .tc main_v10) = val_main_v10 (F := F) x2) :
    StableHlo.after opsB V (Proc.devRef .tc main_v23) = val_main_v23 (F := F) x0 x1 x2 := by
  subst h0 h1 h2
  after_results_simp
  try simp only [TRef.ofBuf, TRef.toBuf, cast_eq]
  rw [h10]
  rfl

/-- Stretch C: the hidden layer, from the features, the neighbour means, layer 1's weights and bias. -/
theorem stageC (V : Valuation τ sig (Elt F)) (x0 : (⟨S200000x26, .f32⟩ : BufTy).Contents (Elt F)) (x1 x2 : (⟨S6400000, .i32⟩ : BufTy).Contents (Elt F)) (x3 x4 : (⟨S26x40, .f32⟩ : BufTy).Contents (Elt F)) (x5 : (⟨S40, .f32⟩ : BufTy).Contents (Elt F))
    (h0 : V (Proc.devRef .tc main_arg0) = x0) (h3 : V (Proc.devRef .tc main_arg3) = x3) (h4 : V (Proc.devRef .tc main_arg4) = x4) (h5 : V (Proc.devRef .tc main_arg5) = x5)
    (h23 : V (Proc.devRef .tc main_v23) = val_main_v23 (F := F) x0 x1 x2) :
    StableHlo.after opsC V (Proc.devRef .tc main_v30) = val_main_v30 (F := F) x0 x1 x2 x3 x4 x5 := by
  subst h0 h3 h4 h5
  after_results_simp
  try simp only [TRef.ofBuf, TRef.toBuf, cast_eq]
  rw [h23]
  rfl

/-- Stretch D: layer 2's neighbour means, from the hidden layer, the two index arrays and the reciprocal in-degree. -/
theorem stageD (V : Valuation τ sig (Elt F)) (x0 : (⟨S200000x26, .f32⟩ : BufTy).Contents (Elt F)) (x1 x2 : (⟨S6400000, .i32⟩ : BufTy).Contents (Elt F)) (x3 x4 : (⟨S26x40, .f32⟩ : BufTy).Contents (Elt F)) (x5 : (⟨S40, .f32⟩ : BufTy).Contents (Elt F))
    (h1 : V (Proc.devRef .tc main_arg1) = x1) (h2 : V (Proc.devRef .tc main_arg2) = x2)
    (h10 : V (Proc.devRef .tc main_v10) = val_main_v10 (F := F) x2)
    (h30 : V (Proc.devRef .tc main_v30) = val_main_v30 (F := F) x0 x1 x2 x3 x4 x5) :
    StableHlo.after opsD V (Proc.devRef .tc main_v43) = val_main_v43 (F := F) x0 x1 x2 x3 x4 x5 := by
  subst h1 h2
  after_results_simp
  try simp only [TRef.ofBuf, TRef.toBuf, cast_eq]
  rw [h10, h30]
  rfl

/-- Stretch E: layer 2's sums before the softmax, from the hidden layer, its neighbour means, layer 2's weights and bias. -/
theorem stageE (V : Valuation τ sig (Elt F)) (x0 : (⟨S200000x26, .f32⟩ : BufTy).Contents (Elt F)) (x1 x2 : (⟨S6400000, .i32⟩ : BufTy).Contents (Elt F)) (x3 x4 : (⟨S26x40, .f32⟩ : BufTy).Contents (Elt F)) (x5 : (⟨S40, .f32⟩ : BufTy).Contents (Elt F)) (x6 x7 : (⟨S40x24, .f32⟩ : BufTy).Contents (Elt F)) (x8 : (⟨S24, .f32⟩ : BufTy).Contents (Elt F))
    (h6 : V (Proc.devRef .tc main_arg6) = x6) (h7 : V (Proc.devRef .tc main_arg7) = x7) (h8 : V (Proc.devRef .tc main_arg8) = x8)
    (h30 : V (Proc.devRef .tc main_v30) = val_main_v30 (F := F) x0 x1 x2 x3 x4 x5)
    (h43 : V (Proc.devRef .tc main_v43) = val_main_v43 (F := F) x0 x1 x2 x3 x4 x5) :
    StableHlo.after opsE V (Proc.devRef .tc main_v49) = val_main_v49 (F := F) x0 x1 x2 x3 x4 x5 x6 x7 x8 := by
  subst h6 h7 h8
  after_results_simp
  try simp only [TRef.ofBuf, TRef.toBuf, cast_eq]
  rw [h30, h43]
  rfl

/-- Stretch F1: each row's maximum of the pre-softmax sums, from minus infinity. -/
theorem stageF1 (V : Valuation τ sig (Elt F)) (x0 : (⟨S200000x26, .f32⟩ : BufTy).Contents (Elt F)) (x1 x2 : (⟨S6400000, .i32⟩ : BufTy).Contents (Elt F)) (x3 x4 : (⟨S26x40, .f32⟩ : BufTy).Contents (Elt F)) (x5 : (⟨S40, .f32⟩ : BufTy).Contents (Elt F)) (x6 x7 : (⟨S40x24, .f32⟩ : BufTy).Contents (Elt F)) (x8 : (⟨S24, .f32⟩ : BufTy).Contents (Elt F))
    (h49 : V (Proc.devRef .tc main_v49) = val_main_v49 (F := F) x0 x1 x2 x3 x4 x5 x6 x7 x8) :
    StableHlo.after opsF1 V (Proc.devRef .tc main_call2_v0) = val_main_call2_v0 (F := F) x0 x1 x2 x3 x4 x5 x6 x7 x8 := by
  after_results_simp
  try simp only [TRef.ofBuf, TRef.toBuf, cast_eq]
  rw [h49]
  rfl

/-- Stretch F2: that maximum against minus infinity once more. -/
theorem stageF2 (V : Valuation τ sig (Elt F)) (x0 : (⟨S200000x26, .f32⟩ : BufTy).Contents (Elt F)) (x1 x2 : (⟨S6400000, .i32⟩ : BufTy).Contents (Elt F)) (x3 x4 : (⟨S26x40, .f32⟩ : BufTy).Contents (Elt F)) (x5 : (⟨S40, .f32⟩ : BufTy).Contents (Elt F)) (x6 x7 : (⟨S40x24, .f32⟩ : BufTy).Contents (Elt F)) (x8 : (⟨S24, .f32⟩ : BufTy).Contents (Elt F))
    (h0 : V (Proc.devRef .tc main_call2_v0) = val_main_call2_v0 (F := F) x0 x1 x2 x3 x4 x5 x6 x7 x8) :
    StableHlo.after opsF2 V (Proc.devRef .tc main_call2_v2) = val_main_call2_v2 (F := F) x0 x1 x2 x3 x4 x5 x6 x7 x8 := by
  after_results_simp
  try simp only [TRef.ofBuf, TRef.toBuf, cast_eq]
  rw [h0]
  rfl

/-- Stretch F3: the sums minus their row's maximum. -/
theorem stageF3 (V : Valuation τ sig (Elt F)) (x0 : (⟨S200000x26, .f32⟩ : BufTy).Contents (Elt F)) (x1 x2 : (⟨S6400000, .i32⟩ : BufTy).Contents (Elt F)) (x3 x4 : (⟨S26x40, .f32⟩ : BufTy).Contents (Elt F)) (x5 : (⟨S40, .f32⟩ : BufTy).Contents (Elt F)) (x6 x7 : (⟨S40x24, .f32⟩ : BufTy).Contents (Elt F)) (x8 : (⟨S24, .f32⟩ : BufTy).Contents (Elt F))
    (h2 : V (Proc.devRef .tc main_call2_v2) = val_main_call2_v2 (F := F) x0 x1 x2 x3 x4 x5 x6 x7 x8)
    (h49 : V (Proc.devRef .tc main_v49) = val_main_v49 (F := F) x0 x1 x2 x3 x4 x5 x6 x7 x8) :
    StableHlo.after opsF3 V (Proc.devRef .tc main_call2_v5) = val_main_call2_v5 (F := F) x0 x1 x2 x3 x4 x5 x6 x7 x8 := by
  after_results_simp
  try simp only [TRef.ofBuf, TRef.toBuf, cast_eq]
  rw [h2, h49]
  rfl

/-- Stretch F4: each row's sum of the exponentials of those differences. -/
theorem stageF4 (V : Valuation τ sig (Elt F)) (x0 : (⟨S200000x26, .f32⟩ : BufTy).Contents (Elt F)) (x1 x2 : (⟨S6400000, .i32⟩ : BufTy).Contents (Elt F)) (x3 x4 : (⟨S26x40, .f32⟩ : BufTy).Contents (Elt F)) (x5 : (⟨S40, .f32⟩ : BufTy).Contents (Elt F)) (x6 x7 : (⟨S40x24, .f32⟩ : BufTy).Contents (Elt F)) (x8 : (⟨S24, .f32⟩ : BufTy).Contents (Elt F))
    (h5 : V (Proc.devRef .tc main_call2_v5) = val_main_call2_v5 (F := F) x0 x1 x2 x3 x4 x5 x6 x7 x8) :
    StableHlo.after opsF4 V (Proc.devRef .tc main_call2_v7) = val_main_call2_v7 (F := F) x0 x1 x2 x3 x4 x5 x6 x7 x8 := by
  after_results_simp
  try simp only [TRef.ofBuf, TRef.toBuf, cast_eq]
  rw [h5]
  rfl

/-- Stretch F5: the differences minus the logarithm of their row's sum: the log-softmax. -/
theorem stageF5 (V : Valuation τ sig (Elt F)) (x0 : (⟨S200000x26, .f32⟩ : BufTy).Contents (Elt F)) (x1 x2 : (⟨S6400000, .i32⟩ : BufTy).Contents (Elt F)) (x3 x4 : (⟨S26x40, .f32⟩ : BufTy).Contents (Elt F)) (x5 : (⟨S40, .f32⟩ : BufTy).Contents (Elt F)) (x6 x7 : (⟨S40x24, .f32⟩ : BufTy).Contents (Elt F)) (x8 : (⟨S24, .f32⟩ : BufTy).Contents (Elt F))
    (h5 : V (Proc.devRef .tc main_call2_v5) = val_main_call2_v5 (F := F) x0 x1 x2 x3 x4 x5 x6 x7 x8)
    (h7 : V (Proc.devRef .tc main_call2_v7) = val_main_call2_v7 (F := F) x0 x1 x2 x3 x4 x5 x6 x7 x8) :
    StableHlo.after opsF5 V (Proc.devRef .tc main_v50) = val_main_v50 (F := F) x0 x1 x2 x3 x4 x5 x6 x7 x8 := by
  after_results_simp
  try simp only [TRef.ofBuf, TRef.toBuf, cast_eq]
  rw [h5, h7]
  rfl

/-- THE REFERENCE'S RESULT: the fold of all 81 operations, read at the result buffer, is the last stage of the
    arguments' contents. Each `have` below is one live buffer at one cut: its stretch's lemma where the stretch writes
    it, and "no operation of the stretch writes it" (the fold read through) where it only passes. -/
theorem result_eq (V : Valuation τ sig (Elt F)) :
    StableHlo.after ops V (Proc.devRef .tc main_v50)
      = val_main_v50 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [ops_split]
  simp only [StableHlo.after_append]
  -- after stretch A
  have a10 : StableHlo.after opsA V (Proc.devRef .tc main_v10) = val_main_v10 (F := F) (V (Proc.devRef .tc main_arg2)) := stageA V
  have a_0 : StableHlo.after opsA V (Proc.devRef .tc main_arg0) = V (Proc.devRef .tc main_arg0) := by after_results_simp
  have a_1 : StableHlo.after opsA V (Proc.devRef .tc main_arg1) = V (Proc.devRef .tc main_arg1) := by after_results_simp
  have a_2 : StableHlo.after opsA V (Proc.devRef .tc main_arg2) = V (Proc.devRef .tc main_arg2) := by after_results_simp
  have a_3 : StableHlo.after opsA V (Proc.devRef .tc main_arg3) = V (Proc.devRef .tc main_arg3) := by after_results_simp
  have a_4 : StableHlo.after opsA V (Proc.devRef .tc main_arg4) = V (Proc.devRef .tc main_arg4) := by after_results_simp
  have a_5 : StableHlo.after opsA V (Proc.devRef .tc main_arg5) = V (Proc.devRef .tc main_arg5) := by after_results_simp
  have a_6 : StableHlo.after opsA V (Proc.devRef .tc main_arg6) = V (Proc.devRef .tc main_arg6) := by after_results_simp
  have a_7 : StableHlo.after opsA V (Proc.devRef .tc main_arg7) = V (Proc.devRef .tc main_arg7) := by after_results_simp
  have a_8 : StableHlo.after opsA V (Proc.devRef .tc main_arg8) = V (Proc.devRef .tc main_arg8) := by after_results_simp
  generalize StableHlo.after opsA V = VA at *
  -- after stretch B
  have b23 := stageB VA _ _ _ a_0 a_1 a_2 a10
  have b10 : StableHlo.after opsB VA (Proc.devRef .tc main_v10) = _ := (by after_results_simp : _ = VA (Proc.devRef .tc main_v10)).trans a10
  have b_0 : StableHlo.after opsB VA (Proc.devRef .tc main_arg0) = _ := (by after_results_simp : _ = VA (Proc.devRef .tc main_arg0)).trans a_0
  have b_1 : StableHlo.after opsB VA (Proc.devRef .tc main_arg1) = _ := (by after_results_simp : _ = VA (Proc.devRef .tc main_arg1)).trans a_1
  have b_2 : StableHlo.after opsB VA (Proc.devRef .tc main_arg2) = _ := (by after_results_simp : _ = VA (Proc.devRef .tc main_arg2)).trans a_2
  have b_3 : StableHlo.after opsB VA (Proc.devRef .tc main_arg3) = _ := (by after_results_simp : _ = VA (Proc.devRef .tc main_arg3)).trans a_3
  have b_4 : StableHlo.after opsB VA (Proc.devRef .tc main_arg4) = _ := (by after_results_simp : _ = VA (Proc.devRef .tc main_arg4)).trans a_4
  have b_5 : StableHlo.after opsB VA (Proc.devRef .tc main_arg5) = _ := (by after_results_simp : _ = VA (Proc.devRef .tc main_arg5)).trans a_5
  have b_6 : StableHlo.after opsB VA (Proc.devRef .tc main_arg6) = _ := (by after_results_simp : _ = VA (Proc.devRef .tc main_arg6)).trans a_6
  have b_7 : StableHlo.after opsB VA (Proc.devRef .tc main_arg7) = _ := (by after_results_simp : _ = VA (Proc.devRef .tc main_arg7)).trans a_7
  have b_8 : StableHlo.after opsB VA (Proc.devRef .tc main_arg8) = _ := (by after_results_simp : _ = VA (Proc.devRef .tc main_arg8)).trans a_8
  generalize StableHlo.after opsB VA = VB at *
  -- after stretch C
  have c30 := stageC VB _ _ _ _ _ _ b_0 b_3 b_4 b_5 b23
  have c10 : StableHlo.after opsC VB (Proc.devRef .tc main_v10) = _ := (by after_results_simp : _ = VB (Proc.devRef .tc main_v10)).trans b10
  have c_1 : StableHlo.after opsC VB (Proc.devRef .tc main_arg1) = _ := (by after_results_simp : _ = VB (Proc.devRef .tc main_arg1)).trans b_1
  have c_2 : StableHlo.after opsC VB (Proc.devRef .tc main_arg2) = _ := (by after_results_simp : _ = VB (Proc.devRef .tc main_arg2)).trans b_2
  have c_6 : StableHlo.after opsC VB (Proc.devRef .tc main_arg6) = _ := (by after_results_simp : _ = VB (Proc.devRef .tc main_arg6)).trans b_6
  have c_7 : StableHlo.after opsC VB (Proc.devRef .tc main_arg7) = _ := (by after_results_simp : _ = VB (Proc.devRef .tc main_arg7)).trans b_7
  have c_8 : StableHlo.after opsC VB (Proc.devRef .tc main_arg8) = _ := (by after_results_simp : _ = VB (Proc.devRef .tc main_arg8)).trans b_8
  generalize StableHlo.after opsC VB = VC at *
  -- after stretch D
  have d43 := stageD VC _ _ _ _ _ _ c_1 c_2 c10 c30
  have d30 : StableHlo.after opsD VC (Proc.devRef .tc main_v30) = _ := (by after_results_simp : _ = VC (Proc.devRef .tc main_v30)).trans c30
  have d_6 : StableHlo.after opsD VC (Proc.devRef .tc main_arg6) = _ := (by after_results_simp : _ = VC (Proc.devRef .tc main_arg6)).trans c_6
  have d_7 : StableHlo.after opsD VC (Proc.devRef .tc main_arg7) = _ := (by after_results_simp : _ = VC (Proc.devRef .tc main_arg7)).trans c_7
  have d_8 : StableHlo.after opsD VC (Proc.devRef .tc main_arg8) = _ := (by after_results_simp : _ = VC (Proc.devRef .tc main_arg8)).trans c_8
  generalize StableHlo.after opsD VC = VD at *
  -- after stretch E, then F
  have e49 := stageE VD _ _ _ _ _ _ _ _ _ d_6 d_7 d_8 d30 d43
  generalize StableHlo.after opsE VD = VE at *
  -- the log-softmax, in five short stretches
  have f0 := stageF1 VE _ _ _ _ _ _ _ _ _ e49
  have f49 : StableHlo.after opsF1 VE (Proc.devRef .tc main_v49) = _ := (by after_results_simp : _ = VE (Proc.devRef .tc main_v49)).trans e49
  generalize StableHlo.after opsF1 VE = VF1 at *
  have g2 := stageF2 VF1 _ _ _ _ _ _ _ _ _ f0
  have g49 : StableHlo.after opsF2 VF1 (Proc.devRef .tc main_v49) = _ := (by after_results_simp : _ = VF1 (Proc.devRef .tc main_v49)).trans f49
  generalize StableHlo.after opsF2 VF1 = VF2 at *
  have k5 := stageF3 VF2 _ _ _ _ _ _ _ _ _ g2 g49
  generalize StableHlo.after opsF3 VF2 = VF3 at *
  have l7 := stageF4 VF3 _ _ _ _ _ _ _ _ _ k5
  have l5 : StableHlo.after opsF4 VF3 (Proc.devRef .tc main_call2_v5) = _ := (by after_results_simp : _ = VF3 (Proc.devRef .tc main_call2_v5)).trans k5
  generalize StableHlo.after opsF4 VF3 = VF4 at *
  exact stageF5 VF4 _ _ _ _ _ _ _ _ _ l5 l7

end Cert.ReferenceIdeal.Stages

end
-- ==== Proof.KernelEntries.lean ====
/- What the kernel program's regions find in their windows' arrays.
   Before the first kernel the host computes the reciprocal in-degree and layer 1's neighbour means with the very
   operations the reference uses — so at the first region's entry the neighbour-mean array holds the reference's stage
   `val_main_v23` of the arguments, the feature and weight arrays are the arguments, and the bias row is the bias
   reshaped to one row. Between the kernels the host gathers and scatter-adds the first kernel's output the same way:
   if that output is the reference's hidden layer `val_main_v30` of the arguments, the second region finds the
   reference's `val_main_v43` in its neighbour-mean array. Nothing here opens a gather or a scatter: both programs'
   texts compose the same operations, and the stage functions are their compositions. -/
import proofs.«164080_j25606595019232_1_alg».proof.Proof.Gen.KernelIdeal.Frame
import proofs.«164080_j25606595019232_1_alg».proof.Proof.RefReadPatched
import Idealize.ShloMosaic.Lib.StableHlo.Run
import Idealize.ShloMosaic.Lib.Pipeline.Value

set_option maxRecDepth 16384

noncomputable section

namespace Cert.Sage

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## Region 0's entry -/

theorem entry0_arg0 (c : Dev nD) : V3 m ρ c main_arg0 = (m ((c : Thread nD τ).loc main_arg0)) := by
  show StableHlo.after hostOps0_2 (StableHlo.after hostOps0_1 (StableHlo.after hostOps0 (W0 m ρ c))) (Proc.devRef .tc main_arg0) = _
  after_results_simp <;> rfl
theorem entry0_arg3 (c : Dev nD) : V3 m ρ c main_arg3 = (m ((c : Thread nD τ).loc main_arg3)) := by
  show StableHlo.after hostOps0_2 (StableHlo.after hostOps0_1 (StableHlo.after hostOps0 (W0 m ρ c))) (Proc.devRef .tc main_arg3) = _
  after_results_simp <;> rfl
theorem entry0_arg4 (c : Dev nD) : V3 m ρ c main_arg4 = (m ((c : Thread nD τ).loc main_arg4)) := by
  show StableHlo.after hostOps0_2 (StableHlo.after hostOps0_1 (StableHlo.after hostOps0 (W0 m ρ c))) (Proc.devRef .tc main_arg4) = _
  after_results_simp <;> rfl
theorem entry0_arg1 (c : Dev nD) : V3 m ρ c main_arg1 = (m ((c : Thread nD τ).loc main_arg1)) := by
  show StableHlo.after hostOps0_2 (StableHlo.after hostOps0_1 (StableHlo.after hostOps0 (W0 m ρ c))) (Proc.devRef .tc main_arg1) = _
  after_results_simp <;> rfl
theorem entry0_arg2 (c : Dev nD) : V3 m ρ c main_arg2 = (m ((c : Thread nD τ).loc main_arg2)) := by
  show StableHlo.after hostOps0_2 (StableHlo.after hostOps0_1 (StableHlo.after hostOps0 (W0 m ρ c))) (Proc.devRef .tc main_arg2) = _
  after_results_simp <;> rfl

/-- The reciprocal in-degree, as the host leaves it before the first kernel. -/
theorem entry0_deginv (c : Dev nD) : V3 m ρ c main_v10 = Cert.ReferenceIdeal.ReadP.val_main_v10 (F := F) (m ((c : Thread nD τ).loc main_arg2)) := by
  show StableHlo.after hostOps0_2 (StableHlo.after hostOps0_1 (StableHlo.after hostOps0 (W0 m ρ c))) (Proc.devRef .tc main_v10) = _
  after_results_simp
  try simp only [TRef.ofBuf, TRef.toBuf, cast_eq]
  rfl

/-- Layer 1's neighbour means, as the host leaves them before the first kernel. -/
theorem entry0_agg (c : Dev nD) :
    V3 m ρ c main_v23 = Cert.ReferenceIdeal.ReadP.val_main_v23 (F := F) (m ((c : Thread nD τ).loc main_arg0)) (m ((c : Thread nD τ).loc main_arg1)) (m ((c : Thread nD τ).loc main_arg2)) := by
  show StableHlo.after hostOps0_2 (StableHlo.after hostOps0_1 (StableHlo.after hostOps0 (W0 m ρ c))) (Proc.devRef .tc main_v23) = _
  after_results_simp
  try simp only [TRef.ofBuf, TRef.toBuf, cast_eq]
  rfl

/-- The bias row of the first kernel is the bias vector as one row. -/
theorem entry0_bias (c : Dev nD) (y : S1x40.Idx) (i : S40.Idx) (hi : (i 0).val = (y 1).val) :
    V3 m ρ c main_v24 y = (m ((c : Thread nD τ).loc main_arg5)) i := by
  have e : V3 m ρ c main_v24 = fun y => shapeCast S1x40 (m ((c : Thread nD τ).loc main_arg5)) shapeCasts_S40_S1x40 y := by
    show StableHlo.after hostOps0_2 (StableHlo.after hostOps0_1 (StableHlo.after hostOps0 (W0 m ρ c))) (Proc.devRef .tc main_v24) = _
    after_results
    rfl
  rw [e]
  refine shapeCast_apply _ _ y i ?_
  rw [Shape.rowMajor_val_one, Shape.rowMajor_val_two]
  have h0 : (y 0).val < 1 := (y 0).isLt
  show (i 0).val = (y 0).val * 40 + (y 1).val
  omega

/-! ## Region 1's entry -/

theorem mid_arg1 (c : Dev nD) : W4 m ρ c (Proc.devRef .tc main_arg1) = (m ((c : Thread nD τ).loc main_arg1)) :=
  (W4_of_ne m ρ c main_arg1 (by decide)).trans (entry0_arg1 m ρ c)
theorem mid_arg2 (c : Dev nD) : W4 m ρ c (Proc.devRef .tc main_arg2) = (m ((c : Thread nD τ).loc main_arg2)) :=
  (W4_of_ne m ρ c main_arg2 (by decide)).trans (entry0_arg2 m ρ c)
theorem mid_deginv (c : Dev nD) : W4 m ρ c (Proc.devRef .tc main_v10) = Cert.ReferenceIdeal.ReadP.val_main_v10 (F := F) (m ((c : Thread nD τ).loc main_arg2)) :=
  (W4_of_ne m ρ c main_v10 (by decide)).trans (entry0_deginv m ρ c)

theorem entry1_arg6 (c : Dev nD) : V5 m ρ c main_arg6 = (m ((c : Thread nD τ).loc main_arg6)) := by
  show StableHlo.after hostOps1 (W4 m ρ c) (Proc.devRef .tc main_arg6) = _
  refine Eq.trans (by after_results_simp) ((W4_of_ne m ρ c main_arg6 (by decide)).trans ?_)
  show StableHlo.after hostOps0_2 (StableHlo.after hostOps0_1 (StableHlo.after hostOps0 (W0 m ρ c))) (Proc.devRef .tc main_arg6) = _
  after_results_simp <;> rfl
theorem entry1_arg7 (c : Dev nD) : V5 m ρ c main_arg7 = (m ((c : Thread nD τ).loc main_arg7)) := by
  show StableHlo.after hostOps1 (W4 m ρ c) (Proc.devRef .tc main_arg7) = _
  refine Eq.trans (by after_results_simp) ((W4_of_ne m ρ c main_arg7 (by decide)).trans ?_)
  show StableHlo.after hostOps0_2 (StableHlo.after hostOps0_1 (StableHlo.after hostOps0 (W0 m ρ c))) (Proc.devRef .tc main_arg7) = _
  after_results_simp <;> rfl

/-- The second kernel's first window is the first kernel's output array, untouched by the host in between. -/
theorem entry1_hidden (c : Dev nD) : V5 m ρ c main_v25 = (dat0 (V3 m ρ) c).arrAt 5 cfg0.N := by
  show StableHlo.after hostOps1 (W4 m ρ c) (Proc.devRef .tc main_v25) = _
  exact Eq.trans (by after_results_simp) (W4_arr m ρ c 5)

/-- Layer 2's neighbour means, as the host leaves them before the second kernel, when the first kernel's output is the
    reference's hidden layer. -/
theorem entry1_agg (c : Dev nD) (x3 x4 : (⟨Cert.ReferenceIdeal.S26x40, .f32⟩ : BufTy).Contents (Elt F)) (x5 : (⟨Cert.ReferenceIdeal.S40, .f32⟩ : BufTy).Contents (Elt F))
    (H : W4 m ρ c (Proc.devRef .tc main_v25) = Cert.ReferenceIdeal.ReadP.val_main_v30 (F := F) (m ((c : Thread nD τ).loc main_arg0)) (m ((c : Thread nD τ).loc main_arg1)) (m ((c : Thread nD τ).loc main_arg2)) x3 x4 x5) :
    V5 m ρ c main_v38 = Cert.ReferenceIdeal.ReadP.val_main_v43 (F := F) (m ((c : Thread nD τ).loc main_arg0)) (m ((c : Thread nD τ).loc main_arg1)) (m ((c : Thread nD τ).loc main_arg2)) x3 x4 x5 := by
  show StableHlo.after hostOps1 (W4 m ρ c) (Proc.devRef .tc main_v38) = _
  after_results_simp
  try simp only [TRef.ofBuf, TRef.toBuf, cast_eq]
  rw [H, mid_arg1 m ρ c, mid_arg2 m ρ c, mid_deginv m ρ c]
  rfl

/-- The bias row of the second kernel is the bias vector as one row. -/
theorem entry1_bias (c : Dev nD) (y : S1x24.Idx) (i : S24.Idx) (hi : (i 0).val = (y 1).val) :
    V5 m ρ c main_v39 y = (m ((c : Thread nD τ).loc main_arg8)) i := by
  have e : V5 m ρ c main_v39 = fun y => shapeCast S1x24 (W4 m ρ c (Proc.devRef .tc main_arg8)) shapeCasts_S24_S1x24 y := by
    show StableHlo.after hostOps1 (W4 m ρ c) (Proc.devRef .tc main_v39) = _
    after_results
    rfl
  have e8 : W4 m ρ c (Proc.devRef .tc main_arg8) = (m ((c : Thread nD τ).loc main_arg8)) := by
    refine (W4_of_ne m ρ c main_arg8 (by decide)).trans ?_
    show StableHlo.after hostOps0_2 (StableHlo.after hostOps0_1 (StableHlo.after hostOps0 (W0 m ρ c))) (Proc.devRef .tc main_arg8) = _
    after_results_simp <;> rfl
  rw [e, e8]
  refine shapeCast_apply _ _ y i ?_
  rw [Shape.rowMajor_val_one, Shape.rowMajor_val_two]
  have h0 : (y 0).val < 1 := (y 0).isLt
  show (i 0).val = (y 0).val * 24 + (y 1).val
  omega

end Cert.Sage

end
-- ==== Proof.Layer1Point.lean ====
/- Layer 1 at a point of the grid. The first kernel's stored block, read at a position `y` of the block, is
   `max (Σ_k feat[r,k]·W1_self[k,j] + Σ_k agg[r,k]·W1_neigh[k,j] + b1[j], 0)` at the array row `r = t·20000 + y₀` and
   column `j = y₁`: the same sums, in the same order, as the reference's `relu (x @ W_self + mean @ W_neigh + b)`
   read at `(r, j)`. The narrowing to bf16 before each product is the identity on the extended reals, the product
   into a zero accumulator is the plain sum over the contracted axis, and the row of biases broadcast down the block
   reads `b1[j]`. -/
import proofs.«164080_j25606595019232_1_alg».proof.Proof.Gen.KernelIdeal.Frame
import proofs.«164080_j25606595019232_1_alg».proof.Proof.RefReadPatched
import Idealize.ShloMosaic.Lib.ValueIdx
import Idealize.ShloMosaic.Lib.ValueLayout
import Idealize.ShloMosaic.Lib.Pipeline.Value
import Idealize.ShloMosaic.PureOps.Ideal.Laws

noncomputable section

namespace Cert.Sage

open Idealize.ShloMosaic Idealize.ShloMosaic.TcCoe Idealize.SL.Sem Idealize.ShloMosaic.ValueIdx
open Cert.KernelIdeal Cert.KernelIdeal.Gen

/-- The zero offsets of a whole-buffer rectangle, as the constant function. -/
theorem l1_offsets_zero : (![0, 0] : Fin 2 → Nat) = fun _ => 0 := funext fun a => by fin_cases a <;> rfl

/-! ## The block's product: operand indices of output position `j` and contraction position `k` -/

/-- The left operand's row `j₀` is kept … -/
theorem l1_lhs_0 (j : S20000x40.Idx) (q : dot_S20000x26_S26x40_S20000x40_1_0_0_1_n_n.contr.Idx) :
    (dot_S20000x26_S26x40_S20000x40_1_0_0_1_n_n.lhsIdx j q 0).val = (j 0).val := by
  unfold DotDims.lhsIdx
  rw [dif_neg (show ¬(0 : Fin S20000x26.rank) ∈ dot_S20000x26_S26x40_S20000x40_1_0_0_1_n_n.lhsBatch by decide), dif_pos (show (0 : Fin S20000x26.rank) ∈ dot_S20000x26_S26x40_S20000x40_1_0_0_1_n_n.lhsNonContracting by decide)]
  rfl
/-- … and its column is the contraction position. -/
theorem l1_lhs_1 (j : S20000x40.Idx) (q : dot_S20000x26_S26x40_S20000x40_1_0_0_1_n_n.contr.Idx) :
    (dot_S20000x26_S26x40_S20000x40_1_0_0_1_n_n.lhsIdx j q 1).val = (q ⟨0, by decide⟩).val :=
  dot_S20000x26_S26x40_S20000x40_1_0_0_1_n_n.lhsIdx_val_of_single rfl j q
/-- The right operand's row is the contraction position … -/
theorem l1_rhs_0 (j : S20000x40.Idx) (q : dot_S20000x26_S26x40_S20000x40_1_0_0_1_n_n.contr.Idx) :
    (dot_S20000x26_S26x40_S20000x40_1_0_0_1_n_n.rhsIdx j q 0).val = (q ⟨0, by decide⟩).val :=
  dot_S20000x26_S26x40_S20000x40_1_0_0_1_n_n.rhsIdx_val_of_single rfl j q
/-- … and its column `j₁` is kept. -/
theorem l1_rhs_1 (j : S20000x40.Idx) (q : dot_S20000x26_S26x40_S20000x40_1_0_0_1_n_n.contr.Idx) :
    (dot_S20000x26_S26x40_S20000x40_1_0_0_1_n_n.rhsIdx j q 1).val = (j 1).val := by
  unfold DotDims.rhsIdx
  rw [dif_neg (show ¬(1 : Fin S26x40.rank) ∈ dot_S20000x26_S26x40_S20000x40_1_0_0_1_n_n.rhsBatch by decide), dif_pos (show (1 : Fin S26x40.rank) ∈ dot_S20000x26_S26x40_S20000x40_1_0_0_1_n_n.rhsNonContracting by decide)]
  rfl

/-- `(j₀, k)`: where the row block is read for output position `j`. -/
abbrev l1_lpt (j : S20000x40.Idx) (k : Fin 26) : S20000x26.Idx := fun a => match a with
  | ⟨0, _⟩ => ⟨(j 0).val, (j 0).isLt⟩
  | ⟨1, _⟩ => ⟨k.val, k.isLt⟩
/-- `(k, j₁)`: where the weight block is read. -/
abbrev l1_rpt (j : S20000x40.Idx) (k : Fin 26) : S26x40.Idx := fun a => match a with
  | ⟨0, _⟩ => ⟨k.val, k.isLt⟩
  | ⟨1, _⟩ => ⟨(j 1).val, (j 1).isLt⟩
/-- `(0, j₁)`: where the one-row bias block is read. -/
abbrev l1_bpt (j : S20000x40.Idx) : S1x40.Idx := fun a => match a with
  | ⟨0, _⟩ => ⟨0, Nat.one_pos⟩
  | ⟨1, _⟩ => ⟨(j 1).val, (j 1).isLt⟩

/-- The block product into the zero accumulator, read at `j`, is the plain sum over the contracted axis. -/
theorem l1_matmul_zero_pt (a : FVec Ideal S20000x26 .bf16) (b : FVec Ideal S26x40 .bf16) (j : S20000x40.Idx) :
    matmul dot_S20000x26_S26x40_S20000x40_1_0_0_1_n_n none a b (constant S20000x40 .f32 0x00000000#32) j = ∑ k : Fin 26, a (l1_lpt j k) * b (l1_rpt j k) := by
  simp only [matmul]
  rw [Ideal.matmul_constant_zero_apply, ← Equiv.sum_comp (ValueIdx.contrEquiv1 dot_S20000x26_S26x40_S20000x40_1_0_0_1_n_n 26 rfl rfl).symm]
  refine Finset.sum_congr rfl fun k _ => ?_
  have hk := ValueIdx.contrEquiv1_symm_val dot_S20000x26_S26x40_S20000x40_1_0_0_1_n_n 26 rfl rfl k
  have el : dot_S20000x26_S26x40_S20000x40_1_0_0_1_n_n.lhsIdx j ((ValueIdx.contrEquiv1 dot_S20000x26_S26x40_S20000x40_1_0_0_1_n_n 26 rfl rfl).symm k) = l1_lpt j k := funext fun a => Fin.ext (by
    match a with
    | ⟨0, _⟩ => exact l1_lhs_0 _ _
    | ⟨1, _⟩ => exact (l1_lhs_1 _ _).trans hk)
  have er : dot_S20000x26_S26x40_S20000x40_1_0_0_1_n_n.rhsIdx j ((ValueIdx.contrEquiv1 dot_S20000x26_S26x40_S20000x40_1_0_0_1_n_n 26 rfl rfl).symm k) = l1_rpt j k := funext fun a => Fin.ext (by
    match a with
    | ⟨0, _⟩ => exact (l1_rhs_0 _ _).trans hk
    | ⟨1, _⟩ => exact l1_rhs_1 _ _)
  rw [el, er]

/-- The bias row broadcast down the block reads the row at `(0, j₁)`. -/
theorem l1_bias_pt (v : Vec Ideal S1x40 .f32) (j : S20000x40.Idx) :
    broadcastTo S20000x40 (shapeCast S1x40 v shapeCasts_S1x40_S1x40) broadcasts_S1x40_S20000x40 j = v (l1_bpt j) := by
  rw [shapeCast_self]
  exact broadcastTo_apply v broadcasts_S1x40_S20000x40 j (l1_bpt j) (fun a => match a with
    | ⟨0, _⟩ => by show 0 = if (1 : Nat) = 1 then 0 else _; rw [if_pos rfl]
    | ⟨1, _⟩ => by show (j 1).val = if (40 : Nat) = 1 then 0 else _; rw [if_neg (by decide)]; rfl)

/-- The stored payload at a block position: the two products summed, plus the bias, clamped below at zero. -/
theorem k0_pay1_pt (v0 v2 : Vec Ideal S20000x26 .f32) (v5 v7 : Vec Ideal S26x40 .f32) (v12 : Vec Ideal S1x40 .f32) (j : S20000x40.Idx) :
    k0_pay1 (F := Ideal) v0 v2 v5 v7 v12 j
      = max ((∑ k : Fin 26, v0 (l1_lpt j k) * v5 (l1_rpt j k)) + (∑ k : Fin 26, v2 (l1_lpt j k) * v7 (l1_rpt j k)) + v12 (l1_bpt j))
          (Ideal.ofBits .f32 0x00000000#32) := by
  unfold k0_pay1
  rw [shapeCast_self]
  refine congrArg₂ max (congrArg₂ (· + ·) (congrArg₂ (· + ·) ?_ ?_) ?_) rfl
  · exact (l1_matmul_zero_pt _ _ j).trans (Finset.sum_congr rfl fun k _ => rfl)
  · exact (l1_matmul_zero_pt _ _ j).trans (Finset.sum_congr rfl fun k _ => rfl)
  · exact l1_bias_pt v12 j

/-- The first layer's output block at block position `y` of grid point `t` is the reference's hidden layer at the
    array index `i = (t·20000 + y₀, y₁)`, when the two row blocks hold rows `t·20000 …` of the features and of the
    neighbour means, the weight blocks are the weights, and the bias block is the bias as one row. -/
theorem layer1_point (x0 : (⟨Cert.ReferenceIdeal.S200000x26, .f32⟩ : BufTy).Contents (Elt Ideal)) (x1 x2 : (⟨Cert.ReferenceIdeal.S6400000, .i32⟩ : BufTy).Contents (Elt Ideal)) (x3 x4 : (⟨Cert.ReferenceIdeal.S26x40, .f32⟩ : BufTy).Contents (Elt Ideal)) (x5 : (⟨Cert.ReferenceIdeal.S40, .f32⟩ : BufTy).Contents (Elt Ideal))
    (t : ℕ)
    (b0 b1 : Vec Ideal S20000x26 .f32) (b2 b3 : Vec Ideal S26x40 .f32) (b4 : Vec Ideal S1x40 .f32)
    (h0 : ∀ (y : S20000x26.Idx) (i : Cert.ReferenceIdeal.S200000x26.Idx), (i 0).val = t * 20000 + (y 0).val → (i 1).val = (y 1).val → b0 y = x0 i)
    (h1 : ∀ (y : S20000x26.Idx) (i : Cert.ReferenceIdeal.S200000x26.Idx), (i 0).val = t * 20000 + (y 0).val → (i 1).val = (y 1).val → b1 y = Cert.ReferenceIdeal.ReadP.val_main_v23 (F := Ideal) x0 x1 x2 i)
    (h2 : ∀ (y : S26x40.Idx) (i : Cert.ReferenceIdeal.S26x40.Idx), (i 0).val = (y 0).val → (i 1).val = (y 1).val → b2 y = x3 i)
    (h3 : ∀ (y : S26x40.Idx) (i : Cert.ReferenceIdeal.S26x40.Idx), (i 0).val = (y 0).val → (i 1).val = (y 1).val → b3 y = x4 i)
    (h4 : ∀ (y : S1x40.Idx) (i : Cert.ReferenceIdeal.S40.Idx), (i 0).val = (y 1).val → b4 y = x5 i)
    (y : S20000x40.Idx) (i : Cert.ReferenceIdeal.S200000x40.Idx) (hi0 : (i 0).val = t * 20000 + (y 0).val) (hi1 : (i 1).val = (y 1).val) :
    out0_5 (F := Ideal) b0 b1 b2 b3 b4 y = Cert.ReferenceIdeal.ReadP.val_main_v30 (F := Ideal) x0 x1 x2 x3 x4 x5 i := by
  unfold out0_5
  rw [View.canon_unit_zero l1_offsets_zero]
  simp only [View.ld_unit_zero (S := S20000x26) l1_offsets_zero, View.ld_unit_zero (S := S26x40) l1_offsets_zero, View.ld_unit_zero (S := S1x40) l1_offsets_zero]
  rw [k0_pay1_pt]
  rw [Cert.ReferenceIdeal.ReadP.val_main_v30_apply, Cert.ReferenceIdeal.ReadP.val_main_call1_v0_apply, Cert.ReferenceIdeal.ReadP.val_main_call1_cst_apply,
    Cert.ReferenceIdeal.ReadP.val_main_v29_apply, Cert.ReferenceIdeal.ReadP.val_main_v28_apply, Cert.ReferenceIdeal.ReadP.val_main_v27_apply,
    Cert.ReferenceIdeal.ReadP.val_main_v26_apply, Cert.ReferenceIdeal.ReadP.val_main_v24_apply, Cert.ReferenceIdeal.ReadP.val_main_v25_apply]
  refine congrArg₂ max (congrArg₂ (· + ·) (congrArg₂ (· + ·) ?_ ?_) ?_) rfl
  · refine Finset.sum_congr rfl fun k _ => ?_
    rw [h0 (l1_lpt y k) (Cert.ReferenceIdeal.ReadP.lidx_main_v24 i k) hi0 rfl, h2 (l1_rpt y k) (Cert.ReferenceIdeal.ReadP.ridx_main_v24 i k) rfl hi1]
  · refine Finset.sum_congr rfl fun k _ => ?_
    rw [h1 (l1_lpt y k) (Cert.ReferenceIdeal.ReadP.lidx_main_v25 i k) hi0 rfl, h3 (l1_rpt y k) (Cert.ReferenceIdeal.ReadP.ridx_main_v25 i k) rfl hi1]
  · exact h4 (l1_bpt y) _ hi1

end Cert.Sage

end
-- ==== Proof.Region0Value.lean ====
/- The first kernel's output array after its ten grid points.
   Point `t` of the grid reads rows `t·20000 … t·20000+19999` of the features and of the neighbour means, the whole
   weight matrices and the bias row, and writes back the same rows of the output. What it writes is, entry by entry, the
   reference's hidden layer at that row and column (the point lemma); the ten row blocks tile the 200000 rows (row `r`
   is in block `r / 20000`); so the array ends holding the reference's hidden layer of the arguments. -/
import proofs.«164080_j25606595019232_1_alg».proof.Proof.Gen.KernelIdeal.Frame
import proofs.«164080_j25606595019232_1_alg».proof.Proof.RefReadPatched
import proofs.«164080_j25606595019232_1_alg».proof.Proof.KernelEntries
import proofs.«164080_j25606595019232_1_alg».proof.Proof.Layer1Point
import Idealize.ShloMosaic.Lib.Pipeline.Value

set_option maxRecDepth 16384

noncomputable section

namespace Cert.Sage

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The reference's hidden layer of the launch contents of the arguments. -/
abbrev hidden (c : Dev nD) : (⟨Cert.ReferenceIdeal.S200000x40, .f32⟩ : BufTy).Contents (Elt Ideal) :=
  Cert.ReferenceIdeal.ReadP.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The printed index maps over the ten points: the two row-block inputs and the output move with the point, the
    weights and the bias row stay at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

set_option maxHeartbeats 400000 in
/-- Window 0's block at point `t` (its rows of the first row array), read at a block position, whatever the region finds in its arrays (`V`):
    the array's entry at the position the block's offset gives. -/
theorem read0_0 (V : (c : Dev nD) → (b : Ref sig .tc) → Buf (Elt Ideal) ((c : Thread nD τ).loc b)) (c : Dev nD) (t : Fin cfg0.N)
    (A : (⟨Cert.ReferenceIdeal.S200000x26, .f32⟩ : BufTy).Contents (Elt Ideal)) (hA : V c (Pipeline.arrRef spec0 0) = A)
    (y : S20000x26.Idx) (i : Cert.ReferenceIdeal.S200000x26.Idx)
    (hi0 : (i 0).val = t.val * 20000 + (y 0).val) (hi1 : (i 1).val = (y 1).val) :
    iblk0 V c 0 t y = A i := by
  obtain ⟨e00, e01, e10, e11, e20, e21, e30, e31, e40, e41, e50, e51⟩ := idx0 t
  show V c (Pipeline.arrRef spec0 0) (((cfg0.win 0).blk t).view.emb y) = A i
  have he : ((cfg0.win 0).blk t).view.emb y = i := by
    funext a; apply Fin.ext
    match a with
    | ⟨0, _⟩ => show win0_0.index t (0 : Fin 2) * 20000 + 1 * (y 0).val = (i 0).val; omega
    | ⟨1, _⟩ => show win0_0.index t (1 : Fin 2) * 26 + 1 * (y 1).val = (i 1).val; omega
  rw [he, hA]

set_option maxHeartbeats 400000 in
/-- Window 1's block at point `t` (its rows of the second row array), read at a block position, whatever the region finds in its arrays (`V`):
    the array's entry at the position the block's offset gives. -/
theorem read0_1 (V : (c : Dev nD) → (b : Ref sig .tc) → Buf (Elt Ideal) ((c : Thread nD τ).loc b)) (c : Dev nD) (t : Fin cfg0.N)
    (A : (⟨Cert.ReferenceIdeal.S200000x26, .f32⟩ : BufTy).Contents (Elt Ideal)) (hA : V c (Pipeline.arrRef spec0 1) = A)
    (y : S20000x26.Idx) (i : Cert.ReferenceIdeal.S200000x26.Idx)
    (hi0 : (i 0).val = t.val * 20000 + (y 0).val) (hi1 : (i 1).val = (y 1).val) :
    iblk0 V c 1 t y = A i := by
  obtain ⟨e00, e01, e10, e11, e20, e21, e30, e31, e40, e41, e50, e51⟩ := idx0 t
  show V c (Pipeline.arrRef spec0 1) (((cfg0.win 1).blk t).view.emb y) = A i
  have he : ((cfg0.win 1).blk t).view.emb y = i := by
    funext a; apply Fin.ext
    match a with
    | ⟨0, _⟩ => show win0_1.index t (0 : Fin 2) * 20000 + 1 * (y 0).val = (i 0).val; omega
    | ⟨1, _⟩ => show win0_1.index t (1 : Fin 2) * 26 + 1 * (y 1).val = (i 1).val; omega
  rw [he, hA]

set_option maxHeartbeats 400000 in
/-- Window 2's block at point `t` (the whole first weight matrix), read at a block position, whatever the region finds in its arrays (`V`):
    the array's entry at the position the block's offset gives. -/
theorem read0_2 (V : (c : Dev nD) → (b : Ref sig .tc) → Buf (Elt Ideal) ((c : Thread nD τ).loc b)) (c : Dev nD) (t : Fin cfg0.N)
    (A : (⟨Cert.ReferenceIdeal.S26x40, .f32⟩ : BufTy).Contents (Elt Ideal)) (hA : V c (Pipeline.arrRef spec0 2) = A)
    (y : S26x40.Idx) (i : Cert.ReferenceIdeal.S26x40.Idx)
    (hi0 : (i 0).val = (y 0).val) (hi1 : (i 1).val = (y 1).val) :
    iblk0 V c 2 t y = A i := by
  obtain ⟨e00, e01, e10, e11, e20, e21, e30, e31, e40, e41, e50, e51⟩ := idx0 t
  show V c (Pipeline.arrRef spec0 2) (((cfg0.win 2).blk t).view.emb y) = A i
  have he : ((cfg0.win 2).blk t).view.emb y = i := by
    funext a; apply Fin.ext
    match a with
    | ⟨0, _⟩ => show win0_2.index t (0 : Fin 2) * 26 + 1 * (y 0).val = (i 0).val; omega
    | ⟨1, _⟩ => show win0_2.index t (1 : Fin 2) * 40 + 1 * (y 1).val = (i 1).val; omega
  rw [he, hA]

set_option maxHeartbeats 400000 in
/-- Window 3's block at point `t` (the whole second weight matrix), read at a block position, whatever the region finds in its arrays (`V`):
    the array's entry at the position the block's offset gives. -/
theorem read0_3 (V : (c : Dev nD) → (b : Ref sig .tc) → Buf (Elt Ideal) ((c : Thread nD τ).loc b)) (c : Dev nD) (t : Fin cfg0.N)
    (A : (⟨Cert.ReferenceIdeal.S26x40, .f32⟩ : BufTy).Contents (Elt Ideal)) (hA : V c (Pipeline.arrRef spec0 3) = A)
    (y : S26x40.Idx) (i : Cert.ReferenceIdeal.S26x40.Idx)
    (hi0 : (i 0).val = (y 0).val) (hi1 : (i 1).val = (y 1).val) :
    iblk0 V c 3 t y = A i := by
  obtain ⟨e00, e01, e10, e11, e20, e21, e30, e31, e40, e41, e50, e51⟩ := idx0 t
  show V c (Pipeline.arrRef spec0 3) (((cfg0.win 3).blk t).view.emb y) = A i
  have he : ((cfg0.win 3).blk t).view.emb y = i := by
    funext a; apply Fin.ext
    match a with
    | ⟨0, _⟩ => show win0_3.index t (0 : Fin 2) * 26 + 1 * (y 0).val = (i 0).val; omega
    | ⟨1, _⟩ => show win0_3.index t (1 : Fin 2) * 40 + 1 * (y 1).val = (i 1).val; omega
  rw [he, hA]

set_option maxHeartbeats 400000 in
/-- Window 4's block at point `t` (the bias as one row), read at a block position, whatever the region finds in its arrays (`V`):
    the array's entry at the position the block's offset gives. -/
theorem read0_4 (V : (c : Dev nD) → (b : Ref sig .tc) → Buf (Elt Ideal) ((c : Thread nD τ).loc b)) (c : Dev nD) (t : Fin cfg0.N)
    (A : (⟨Cert.ReferenceIdeal.S1x40, .f32⟩ : BufTy).Contents (Elt Ideal)) (hA : V c (Pipeline.arrRef spec0 4) = A)
    (y : S1x40.Idx) (i : Cert.ReferenceIdeal.S1x40.Idx)
    (hi0 : (i 0).val = (y 0).val) (hi1 : (i 1).val = (y 1).val) :
    iblk0 V c 4 t y = A i := by
  obtain ⟨e00, e01, e10, e11, e20, e21, e30, e31, e40, e41, e50, e51⟩ := idx0 t
  show V c (Pipeline.arrRef spec0 4) (((cfg0.win 4).blk t).view.emb y) = A i
  have he : ((cfg0.win 4).blk t).view.emb y = i := by
    funext a; apply Fin.ext
    match a with
    | ⟨0, _⟩ => show win0_4.index t (0 : Fin 2) * 1 + 1 * (y 0).val = (i 0).val; omega
    | ⟨1, _⟩ => show win0_4.index t (1 : Fin 2) * 40 + 1 * (y 1).val = (i 1).val; omega
  rw [he, hA]

set_option maxHeartbeats 400000 in
/-- WHAT POINT `t` WRITES BACK is block `t` of that array. -/
theorem flushed0 (c : Dev nD) (t : Fin cfg0.N) :
    (dat0 (V3 m ρ) c).flushed 5 t = ((cfg0.win 5).blk t).view.read (Elt Ideal) (hidden m c) := by
  show (cfg0.win 5).cut (grid0.coords t) ((dat0 (V3 m ρ) c).after 5 t) = _
  rw [after0_5]
  obtain ⟨e00, e01, e10, e11, e20, e21, e30, e31, e40, e41, e50, e51⟩ := idx0 t
  funext j
  show out0_5 (F := Ideal) (iblk0 (V3 m ρ) c 0 t) (iblk0 (V3 m ρ) c 1 t) (iblk0 (V3 m ρ) c 2 t) (iblk0 (V3 m ρ) c 3 t) (iblk0 (V3 m ρ) c 4 t) j
      = hidden m c (((cfg0.win 5).blk t).view.emb j)
  exact layer1_point (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) t.val
    (iblk0 (V3 m ρ) c 0 t) (iblk0 (V3 m ρ) c 1 t) (iblk0 (V3 m ρ) c 2 t) (iblk0 (V3 m ρ) c 3 t) (iblk0 (V3 m ρ) c 4 t)
    (read0_0 (V3 m ρ) c t (m ((c : Thread nD τ).loc main_arg0)) (entry0_arg0 m ρ c))
    (read0_1 (V3 m ρ) c t (Cert.ReferenceIdeal.ReadP.val_main_v23 (F := Ideal) (m ((c : Thread nD τ).loc main_arg0)) (m ((c : Thread nD τ).loc main_arg1)) (m ((c : Thread nD τ).loc main_arg2))) (entry0_agg m ρ c))
    (read0_2 (V3 m ρ) c t (m ((c : Thread nD τ).loc main_arg3)) (entry0_arg3 m ρ c))
    (read0_3 (V3 m ρ) c t (m ((c : Thread nD τ).loc main_arg4)) (entry0_arg4 m ρ c))
    (fun y i hi => (read0_4 (V3 m ρ) c t (V3 m ρ c main_v24) rfl y y rfl rfl).trans (entry0_bias m ρ c y i hi))
    j (((cfg0.win 5).blk t).view.emb j)
    (by show win0_5.index t (0 : Fin 2) * 20000 + 1 * (j 0).val = t.val * 20000 + (j 0).val; omega)
    (by show win0_5.index t (1 : Fin 2) * 40 + 1 * (j 1).val = (j 1).val; omega)

/-- An index of the output array is in point `t`'s block iff each coordinate is in the block's range on its axis. -/
theorem mem_blk0 (t : Fin cfg0.N) (i : S200000x40.Idx) :
    i ∈ ((cfg0.win 5).blk t).view.set ↔ ∀ a : Fin 2, win0_5.index t a * S20000x40.size a ≤ (i a).val ∧ (i a).val < win0_5.index t a * S20000x40.size a + S20000x40.size a := by
  show i ∈ ((View.whole main_v25).slice (win0_5.rect t)).set ↔ _
  rw [View.set_slice_whole, Rect.mem_set_unit]
  exact Iff.rfl

/-- Every row is in the block of the point `row / 20000`. -/
theorem cover0 (i : S200000x40.Idx) :
    ∃ t : Fin cfg0.N, (cfg0.win 5).flush t = true ∧ i ∈ ((cfg0.win 5).blk t).view.set := by
  have hi0 : (i 0).val < 200000 := (i 0).isLt
  have hi1 : (i 1).val < 40 := (i 1).isLt
  have hN : cfg0.N = 10 := N_0
  obtain ⟨t, ht⟩ : ∃ t : Fin cfg0.N, t.val = (i 0).val / 20000 := ⟨⟨(i 0).val / 20000, by rw [hN]; omega⟩, rfl⟩
  obtain ⟨-, -, -, -, -, -, -, -, -, -, e50, e51⟩ := idx0 t
  refine ⟨t, flush0_5 t, ?_⟩
  rw [mem_blk0]
  intro a
  match a with
  | ⟨0, _⟩ => show win0_5.index t (0 : Fin 2) * 20000 ≤ (i 0).val ∧ (i 0).val < win0_5.index t (0 : Fin 2) * 20000 + 20000; omega
  | ⟨1, _⟩ => show win0_5.index t (1 : Fin 2) * 40 ≤ (i 1).val ∧ (i 1).val < win0_5.index t (1 : Fin 2) * 40 + 40; omega

/-- THE ARRAY after the region's ten points. -/
theorem final0 (c : Dev nD) : (dat0 (V3 m ρ) c).arrAt 5 cfg0.N = hidden m c :=
  (dat0 (V3 m ρ) c).arrAt_eq_of_cover 5 (hidden m c) (fun t _ => flushed0 m ρ c t) (cover0)

/-- So after the first region its output buffer holds the reference's hidden layer. -/
theorem mid_hidden (c : Dev nD) : W4 m ρ c (Proc.devRef .tc main_v25) = hidden m c :=
  (W4_arr m ρ c 5).trans (final0 m ρ c)

end Cert.Sage

end
-- ==== Proof.Layer2Point.lean ====
/- Layer 2 at a point of the grid. The second kernel's stored block, read at a position `y` of the block, is the
   log-softmax over the 24 columns of `z[r,·] = Σ_k h[r,k]·W2_self[k,·] + Σ_k agg[r,k]·W2_neigh[k,·] + b2` at the array
   row `r = t·20000 + y₀`: `(z[r,j] − M) − log Σ_j' exp (z[r,j'] − M)` with `M` the row's maximum taken from −∞. The
   reference computes the same row by row; its extra `max (−∞, M)` is `M` on the extended reals.
   The proof reads each side as that closed form over its own `z`: on the kernel's side the row maximum and the row
   sum are the fold of `max` and the sum over the row's 24 positions, and a per-row vector made a column and broadcast
   back reads its row's entry; on the reference's side the same, with `0 +` in front of the sum and `max (−∞, ·)` around
   the maximum. The two `z` agree at every position of the row (the two products are the same sums over the 40 hidden
   coordinates, the narrowing before each product being the identity on the extended reals), so the maxima, the sums
   and the results agree. -/
import proofs.«164080_j25606595019232_1_alg».proof.Proof.Gen.KernelIdeal.Frame
import proofs.«164080_j25606595019232_1_alg».proof.Proof.RefReadPatched
import Idealize.ShloMosaic.Lib.ValueIdx
import Idealize.ShloMosaic.Lib.ValueLayout
import Idealize.ShloMosaic.Lib.Pipeline.Value
import Idealize.ShloMosaic.PureOps.Ideal.Laws

noncomputable section

namespace Cert.Sage

open Idealize.ShloMosaic Idealize.ShloMosaic.TcCoe Idealize.SL.Sem Idealize.ShloMosaic.ValueIdx
open Cert.KernelIdeal Cert.KernelIdeal.Gen

/-- The word `0xFF800000` is `−∞`, the bottom of the extended reals. -/
theorem ofBits_neg_inf : FloatOps.ofBits (F := Ideal) .f32 0xFF800000#32 = ⊥ := by
  show Ideal.ofBits .f32 0xFF800000#32 = ⊥
  simp [Ideal.ofBits, Ideal.ieee]

/-- The block position in row `y₀` and column `k`. -/
abbrev rowAt (y : S20000x24.Idx) (k : Fin 24) : S20000x24.Idx := fun a => match a with
  | ⟨0, _⟩ => ⟨(y 0).val, (y 0).isLt⟩
  | ⟨1, _⟩ => ⟨k.val, k.isLt⟩

/-- The row of a block position, as an index of the per-row vector. -/
abbrev rowOf (y : S20000x24.Idx) : S20000.Idx := fun a => match a with
  | ⟨0, _⟩ => ⟨(y 0).val, (y 0).isLt⟩

/-- A per-row vector, made a column and broadcast along the columns, reads at `y` its entry of row `y₀`. -/
theorem keepdims_apply (v : FVec Ideal S20000 .f32) (hsc : S20000.ShapeCasts S20000x1) (hb : S20000x1.Broadcasts S20000x24)
    (y : S20000x24.Idx) :
    broadcastTo S20000x24 (shapeCast S20000x1 v hsc) hb y = v (rowOf y) := by
  refine (broadcastTo_apply _ hb y (fun a => match a with | ⟨0, _⟩ => ⟨(y 0).val, (y 0).isLt⟩ | ⟨1, _⟩ => ⟨0, Nat.one_pos⟩)
    (fun a => match a with
      | ⟨0, _⟩ => by show (y 0).val = if (20000 : Nat) = 1 then 0 else (y 0).val; rw [if_neg (by decide)]
      | ⟨1, _⟩ => by show 0 = if (1 : Nat) = 1 then 0 else (y 1).val; rw [if_pos rfl])).trans ?_
  refine shapeCast_apply _ hsc _ (rowOf y) ?_
  rw [Shape.rowMajor_val_one, Shape.rowMajor_val_two]
  show (y 0).val = (y 0).val * 1 + 0
  omega

set_option maxHeartbeats 400000 in
/-- The row maximum from `−∞`, read at a row. -/
theorem rowmax_apply (z : FVec Ideal S20000x24 .f32) (hR : S20000x24.Reduces [1] S20000) (hφ : FKind.Formats .f32)
    (hacc : (0xFF800000#32 : BitVec 32) = FKind.maximumf.neutral .f32 hφ) (y : S20000x24.Idx) :
    multiReduction (F := Ideal) .maximumf [1] S20000 z 0xFF800000#32 hR hφ hacc (rowOf y)
      = (Finset.univ : Finset (Fin 24)).fold max ⊥ (fun k => z (rowAt y k)) := by
  refine (Ideal.multiReduction_maximumf_single z _ hR hφ hacc (rowOf y)).trans ?_
  have hb : FloatOps.ofBits (F := Ideal) .f32 0xFF800000#32 = ⊥ := by
    show Ideal.ofBits .f32 0xFF800000#32 = ⊥
    simp [Ideal.ofBits, Ideal.ieee]
  rw [hb]
  have hf : (z ∘ hR.lift (rowOf y)) = (fun k : Fin 24 => z (rowAt y k)) := funext fun k =>
    congrArg z (funext fun a => Fin.ext (by match a with | ⟨0, _⟩ => rfl | ⟨1, _⟩ => rfl))
  rw [hf]
  rfl

set_option maxHeartbeats 400000 in
/-- The row sum from zero, read at a row. -/
theorem rowsum_apply (w : FVec Ideal S20000x24 .f32) (hR : S20000x24.Reduces [1] S20000) (hφ : FKind.Formats .f32)
    (hacc : (0x00000000#32 : BitVec 32) = FKind.add.neutral .f32 hφ) (y : S20000x24.Idx) :
    multiReduction (F := Ideal) .add [1] S20000 w 0x00000000#32 hR hφ hacc (rowOf y)
      = ∑ k : Fin 24, w (rowAt y k) := by
  refine (Ideal.multiReduction_add_single w _ hR hφ hacc (rowOf y)).trans ?_
  refine Finset.sum_congr rfl fun k _ => ?_
  exact congrArg w (funext fun a => Fin.ext (by match a with | ⟨0, _⟩ => rfl | ⟨1, _⟩ => rfl))

/-- A per-row vector's logarithm, made a column and broadcast along the columns, reads at `y` the logarithm of its
    entry of row `y₀`. -/
theorem keepdims_log_apply (v : FVec Ideal S20000 .f32) (hsc : S20000.ShapeCasts S20000x1) (hb : S20000x1.Broadcasts S20000x24)
    (y : S20000x24.Idx) :
    broadcastTo S20000x24 (log (shapeCast S20000x1 v hsc)) hb y = Ideal.log (v (rowOf y)) :=
  keepdims_apply (log v) hsc hb y

set_option maxHeartbeats 400000 in
/-- The kernel's log-softmax of a block `z`, read at `y`: `(z y − M) − log Σ_k exp (z (y₀,k) − M)`, `M` the maximum of
    row `y₀` from `−∞`. -/
theorem logsoftmax_block_apply (z : FVec Ideal S20000x24 .f32) (hR : S20000x24.Reduces [1] S20000) (hφ : FKind.Formats .f32)
    (hmax : (0xFF800000#32 : BitVec 32) = FKind.maximumf.neutral .f32 hφ)
    (hadd : (0x00000000#32 : BitVec 32) = FKind.add.neutral .f32 hφ)
    (hsc : S20000.ShapeCasts S20000x1) (hb : S20000x1.Broadcasts S20000x24) (y : S20000x24.Idx) :
    subf (subf z (broadcastTo S20000x24 (shapeCast S20000x1 (multiReduction (F := Ideal) .maximumf [1] S20000 z 0xFF800000#32 hR hφ hmax) hsc) hb))
        (broadcastTo S20000x24 (log (shapeCast S20000x1
          (multiReduction (F := Ideal) .add [1] S20000
            (exp (subf z (broadcastTo S20000x24 (shapeCast S20000x1 (multiReduction (F := Ideal) .maximumf [1] S20000 z 0xFF800000#32 hR hφ hmax) hsc) hb)))
            0x00000000#32 hR hφ hadd) hsc)) hb) y
      = (z y - (Finset.univ : Finset (Fin 24)).fold max ⊥ (fun k => z (rowAt y k)))
          - Ideal.log (∑ k : Fin 24, Ideal.exp (z (rowAt y k) - (Finset.univ : Finset (Fin 24)).fold max ⊥ (fun k => z (rowAt y k)))) := by
  have hM : ∀ y' : S20000x24.Idx,
      broadcastTo S20000x24 (shapeCast S20000x1 (multiReduction (F := Ideal) .maximumf [1] S20000 z 0xFF800000#32 hR hφ hmax) hsc) hb y'
        = (Finset.univ : Finset (Fin 24)).fold max ⊥ (fun k => z (rowAt y' k)) :=
    fun y' => (keepdims_apply _ hsc hb y').trans (rowmax_apply z hR hφ hmax y')
  show (z y - _) - _ = _
  rw [hM y, keepdims_log_apply, rowsum_apply]
  refine congrArg (fun s => (z y - (Finset.univ : Finset (Fin 24)).fold max ⊥ (fun k => z (rowAt y k))) - Ideal.log s)
    (Finset.sum_congr rfl fun k _ => ?_)
  show Ideal.exp (z (rowAt y k) - _) = _
  rw [hM (rowAt y k)]

/-- The operand positions of the block products at output position `y` and contraction coordinate `k`. -/
abbrev lhsAt (y : S20000x24.Idx) (k : Fin 40) : S20000x40.Idx := fun a => match a with
  | ⟨0, _⟩ => ⟨(y 0).val, (y 0).isLt⟩
  | ⟨1, _⟩ => ⟨k.val, k.isLt⟩
abbrev rhsAt (y : S20000x24.Idx) (k : Fin 40) : S40x24.Idx := fun a => match a with
  | ⟨0, _⟩ => ⟨k.val, k.isLt⟩
  | ⟨1, _⟩ => ⟨(y 1).val, (y 1).isLt⟩

theorem dot_lhs_0 (y : S20000x24.Idx) (q : dot_S20000x40_S40x24_S20000x24_1_0_0_1_n_n.contr.Idx) :
    (dot_S20000x40_S40x24_S20000x24_1_0_0_1_n_n.lhsIdx y q 0).val = (y 0).val := by
  unfold DotDims.lhsIdx
  rw [dif_neg (show ¬(0 : Fin S20000x40.rank) ∈ dot_S20000x40_S40x24_S20000x24_1_0_0_1_n_n.lhsBatch by decide), dif_pos (show (0 : Fin S20000x40.rank) ∈ dot_S20000x40_S40x24_S20000x24_1_0_0_1_n_n.lhsNonContracting by decide)]
  rfl
theorem dot_lhs_1 (y : S20000x24.Idx) (q : dot_S20000x40_S40x24_S20000x24_1_0_0_1_n_n.contr.Idx) :
    (dot_S20000x40_S40x24_S20000x24_1_0_0_1_n_n.lhsIdx y q 1).val = (q ⟨0, by decide⟩).val :=
  dot_S20000x40_S40x24_S20000x24_1_0_0_1_n_n.lhsIdx_val_of_single rfl y q
theorem dot_rhs_0 (y : S20000x24.Idx) (q : dot_S20000x40_S40x24_S20000x24_1_0_0_1_n_n.contr.Idx) :
    (dot_S20000x40_S40x24_S20000x24_1_0_0_1_n_n.rhsIdx y q 0).val = (q ⟨0, by decide⟩).val :=
  dot_S20000x40_S40x24_S20000x24_1_0_0_1_n_n.rhsIdx_val_of_single rfl y q
theorem dot_rhs_1 (y : S20000x24.Idx) (q : dot_S20000x40_S40x24_S20000x24_1_0_0_1_n_n.contr.Idx) :
    (dot_S20000x40_S40x24_S20000x24_1_0_0_1_n_n.rhsIdx y q 1).val = (y 1).val := by
  unfold DotDims.rhsIdx
  rw [dif_neg (show ¬(1 : Fin S40x24.rank) ∈ dot_S20000x40_S40x24_S20000x24_1_0_0_1_n_n.rhsBatch by decide), dif_pos (show (1 : Fin S40x24.rank) ∈ dot_S20000x40_S40x24_S20000x24_1_0_0_1_n_n.rhsNonContracting by decide)]
  rfl

set_option maxHeartbeats 400000 in
/-- A block product into a zero accumulator, its operands narrowed first (the identity on the extended reals), read at
    `y`: the sum over the 40 contraction coordinates of the operands' products. -/
theorem block_matmul_apply (A : FVec Ideal S20000x40 .f32) (W : FVec Ideal S40x24 .f32) (hlt : FTy.bits .bf16 < FTy.bits .f32)
    (y : S20000x24.Idx) :
    matmul (F := Ideal) dot_S20000x40_S40x24_S20000x24_1_0_0_1_n_n none (truncf (F := Ideal) .bf16 A hlt) (truncf (F := Ideal) .bf16 W hlt) (constant (F := Ideal) S20000x24 .f32 0x00000000#32) y
      = ∑ k : Fin 40, A (lhsAt y k) * W (rhsAt y k) := by
  refine (Ideal.matmul_constant_zero_apply _ none _ _ y).trans ?_
  rw [← Equiv.sum_comp (ValueIdx.contrEquiv1 dot_S20000x40_S40x24_S20000x24_1_0_0_1_n_n 40 rfl rfl).symm]
  refine Finset.sum_congr rfl fun k _ => ?_
  have hk := ValueIdx.contrEquiv1_symm_val dot_S20000x40_S40x24_S20000x24_1_0_0_1_n_n 40 rfl rfl k
  have el : dot_S20000x40_S40x24_S20000x24_1_0_0_1_n_n.lhsIdx y ((ValueIdx.contrEquiv1 dot_S20000x40_S40x24_S20000x24_1_0_0_1_n_n 40 rfl rfl).symm k) = lhsAt y k := funext fun a => Fin.ext (by
    match a with
    | ⟨0, _⟩ => exact dot_lhs_0 _ _
    | ⟨1, _⟩ => exact (dot_lhs_1 _ _).trans hk)
  have er : dot_S20000x40_S40x24_S20000x24_1_0_0_1_n_n.rhsIdx y ((ValueIdx.contrEquiv1 dot_S20000x40_S40x24_S20000x24_1_0_0_1_n_n 40 rfl rfl).symm k) = rhsAt y k := funext fun a => Fin.ext (by
    match a with
    | ⟨0, _⟩ => exact (dot_rhs_0 _ _).trans hk
    | ⟨1, _⟩ => exact dot_rhs_1 _ _)
  rw [el, er]
  rfl

/-- The bias row broadcast down the block reads, at `y`, its entry of column `y₁`. -/
theorem bias_row_apply (b : Vec Ideal S1x24 .f32) (hsc : S1x24.ShapeCasts S1x24) (hbc : S1x24.Broadcasts S20000x24)
    (y : S20000x24.Idx) :
    broadcastTo S20000x24 (shapeCast S1x24 b hsc) hbc y
      = b (fun a => match a with | ⟨0, _⟩ => ⟨0, Nat.one_pos⟩ | ⟨1, _⟩ => ⟨(y 1).val, (y 1).isLt⟩) := by
  rw [shapeCast_self]
  exact broadcastTo_apply _ hbc y _ (fun a => match a with
    | ⟨0, _⟩ => by show 0 = if (1 : Nat) = 1 then 0 else (y 0).val; rw [if_pos rfl]
    | ⟨1, _⟩ => by show (y 1).val = if (24 : Nat) = 1 then 0 else (y 1).val; rw [if_neg (by decide)])

/-- The kernel's pre-activation block: the two block products, added, plus the bias row broadcast down the block. -/
def zBlock (b0 b1 : Vec Ideal S20000x40 .f32) (b2 b3 : Vec Ideal S40x24 .f32) (b4 : Vec Ideal S1x24 .f32) : FVec Ideal S20000x24 .f32 :=
  addf (addf
      (matmul dot_S20000x40_S40x24_S20000x24_1_0_0_1_n_n none (truncf .bf16 (shapeCast S20000x40 b0 shapeCasts_S20000x40_S20000x40) bitsLt_bf16_f32) (truncf .bf16 b2 bitsLt_bf16_f32) (constant S20000x24 .f32 0x00000000#32))
      (matmul dot_S20000x40_S40x24_S20000x24_1_0_0_1_n_n none (truncf .bf16 (shapeCast S20000x40 b1 shapeCasts_S20000x40_S20000x40) bitsLt_bf16_f32) (truncf .bf16 b3 bitsLt_bf16_f32) (constant S20000x24 .f32 0x00000000#32)))
    (broadcastTo S20000x24 (shapeCast S1x24 b4 shapeCasts_S1x24_S1x24) broadcasts_S1x24_S20000x24)

open Cert.ReferenceIdeal.ReadP in
set_option maxHeartbeats 400000 in
/-- The pre-activation block at `y` is the reference's pre-activation at the array position `(t·20000 + y₀, y₁)`:
    the same two sums over the 40 hidden coordinates, in the same order, plus `b2[y₁]`. -/
theorem zBlock_apply (x0 : (⟨Cert.ReferenceIdeal.S200000x26, .f32⟩ : BufTy).Contents (Elt Ideal)) (x1 x2 : (⟨Cert.ReferenceIdeal.S6400000, .i32⟩ : BufTy).Contents (Elt Ideal)) (x3 x4 : (⟨Cert.ReferenceIdeal.S26x40, .f32⟩ : BufTy).Contents (Elt Ideal)) (x5 : (⟨Cert.ReferenceIdeal.S40, .f32⟩ : BufTy).Contents (Elt Ideal)) (x6 x7 : (⟨Cert.ReferenceIdeal.S40x24, .f32⟩ : BufTy).Contents (Elt Ideal)) (x8 : (⟨Cert.ReferenceIdeal.S24, .f32⟩ : BufTy).Contents (Elt Ideal))
    (t : ℕ)
    (b0 b1 : Vec Ideal S20000x40 .f32) (b2 b3 : Vec Ideal S40x24 .f32) (b4 : Vec Ideal S1x24 .f32)
    (h0 : ∀ (y : S20000x40.Idx) (i : Cert.ReferenceIdeal.S200000x40.Idx), (i 0).val = t * 20000 + (y 0).val → (i 1).val = (y 1).val → b0 y = Cert.ReferenceIdeal.ReadP.val_main_v30 (F := Ideal) x0 x1 x2 x3 x4 x5 i)
    (h1 : ∀ (y : S20000x40.Idx) (i : Cert.ReferenceIdeal.S200000x40.Idx), (i 0).val = t * 20000 + (y 0).val → (i 1).val = (y 1).val → b1 y = Cert.ReferenceIdeal.ReadP.val_main_v43 (F := Ideal) x0 x1 x2 x3 x4 x5 i)
    (h2 : ∀ (y : S40x24.Idx) (i : Cert.ReferenceIdeal.S40x24.Idx), (i 0).val = (y 0).val → (i 1).val = (y 1).val → b2 y = x6 i)
    (h3 : ∀ (y : S40x24.Idx) (i : Cert.ReferenceIdeal.S40x24.Idx), (i 0).val = (y 0).val → (i 1).val = (y 1).val → b3 y = x7 i)
    (h4 : ∀ (y : S1x24.Idx) (i : Cert.ReferenceIdeal.S24.Idx), (i 0).val = (y 1).val → b4 y = x8 i)
    (y : S20000x24.Idx) (i : Cert.ReferenceIdeal.S200000x24.Idx) (hi0 : (i 0).val = t * 20000 + (y 0).val) (hi1 : (i 1).val = (y 1).val) :
    zBlock b0 b1 b2 b3 b4 y = val_main_v49 (F := Ideal) x0 x1 x2 x3 x4 x5 x6 x7 x8 i := by
  rw [val_main_v49_apply, val_main_v46_apply, val_main_v44_apply, val_main_v45_apply, val_main_v48_apply, val_main_v47_apply]
  unfold zBlock
  rw [shapeCast_self b0, shapeCast_self b1]
  show (matmul _ none _ _ _ y + matmul _ none _ _ _ y) + broadcastTo _ _ _ y = _
  rw [block_matmul_apply, block_matmul_apply, bias_row_apply]
  have e0 : ∀ k : Fin 40, b0 (lhsAt y k) = val_main_v30 (F := Ideal) x0 x1 x2 x3 x4 x5 (lidx_main_v44 i k) :=
    fun k => h0 _ _ hi0 rfl
  have e1 : ∀ k : Fin 40, b1 (lhsAt y k) = val_main_v43 (F := Ideal) x0 x1 x2 x3 x4 x5 (lidx_main_v45 i k) :=
    fun k => h1 _ _ hi0 rfl
  have e2 : ∀ k : Fin 40, b2 (rhsAt y k) = x6 (ridx_main_v44 i k) := fun k => h2 _ _ rfl hi1
  have e3 : ∀ k : Fin 40, b3 (rhsAt y k) = x7 (ridx_main_v45 i k) := fun k => h3 _ _ rfl hi1
  have e4 : b4 (fun a => match a with | ⟨0, _⟩ => ⟨0, Nat.one_pos⟩ | ⟨1, _⟩ => ⟨(y 1).val, (y 1).isLt⟩) = x8 (idx_main_v47 (idx_main_v48 i)) :=
    h4 _ _ hi1
  simp only [e0, e1, e2, e3, e4]
  rfl

/-- The array position in row `i₀` and column `k`. -/
abbrev rowAtR (i : Cert.ReferenceIdeal.S200000x24.Idx) (k : Fin 24) : Cert.ReferenceIdeal.S200000x24.Idx := fun a => match a with
  | ⟨0, _⟩ => ⟨(i 0).val, (i 0).isLt⟩
  | ⟨1, _⟩ => ⟨k.val, k.isLt⟩

/-- Positions of one array row have the same row. -/
theorem rowAtR_rowAtR (i : Cert.ReferenceIdeal.S200000x24.Idx) (k k' : Fin 24) : rowAtR (rowAtR i k) k' = rowAtR i k' :=
  funext fun a => Fin.ext (by match a with | ⟨0, _⟩ => rfl | ⟨1, _⟩ => rfl)

set_option maxHeartbeats 400000 in
/-- The host's reduction with a maximum body over the columns, read at a row: the fold of `max` from the initial value
    over the row's 24 entries. -/
theorem host_rowmax_apply (Z : FVec Ideal Cert.ReferenceIdeal.S200000x24 .f32) (init : FVec Ideal Cert.ReferenceIdeal.S_ .f32)
    (h' : Cert.ReferenceIdeal.S200000x24.ReducesTo [1] Cert.ReferenceIdeal.S200000) (hu : 0 < Cert.ReferenceIdeal.S_.numel)
    (j : Cert.ReferenceIdeal.S200000.Idx) :
    Host.reduce (FloatOps.maximumf (F := Ideal) (φ := .f32)) Z init h' hu j
      = (Finset.univ : Finset (Fin 24)).fold max (init (Shape.Idx.first hu))
          (fun k => Z (fun a => match a with | ⟨0, _⟩ => ⟨(j 0).val, (j 0).isLt⟩ | ⟨1, _⟩ => ⟨k.val, k.isLt⟩)) := by
  have hR : Cert.ReferenceIdeal.S200000x24.Reduces [1] Cert.ReferenceIdeal.S200000 := by decide
  rw [Host.reduce_eq_fold_single (FloatOps.maximumf (F := Ideal) (φ := .f32)) Z init h' hR hu j]
  have hf : (Z ∘ hR.lift j) = (fun k : Fin 24 => Z (fun a => match a with | ⟨0, _⟩ => ⟨(j 0).val, (j 0).isLt⟩ | ⟨1, _⟩ => ⟨k.val, k.isLt⟩)) := funext fun k =>
    congrArg Z (funext fun a => Fin.ext (by match a with | ⟨0, _⟩ => rfl | ⟨1, _⟩ => rfl))
  rw [hf]
  rfl

open Cert.ReferenceIdeal.ReadP in
set_option maxHeartbeats 400000 in
/-- The reference's row maximum broadcast back, read at `i`: the maximum of row `i₀` of `z` from `−∞`; the extra
    `max (−∞, ·)` is the identity on the extended reals. -/
theorem ref_rowmax_apply (x0 : (⟨Cert.ReferenceIdeal.S200000x26, .f32⟩ : BufTy).Contents (Elt Ideal)) (x1 x2 : (⟨Cert.ReferenceIdeal.S6400000, .i32⟩ : BufTy).Contents (Elt Ideal)) (x3 x4 : (⟨Cert.ReferenceIdeal.S26x40, .f32⟩ : BufTy).Contents (Elt Ideal)) (x5 : (⟨Cert.ReferenceIdeal.S40, .f32⟩ : BufTy).Contents (Elt Ideal)) (x6 x7 : (⟨Cert.ReferenceIdeal.S40x24, .f32⟩ : BufTy).Contents (Elt Ideal)) (x8 : (⟨Cert.ReferenceIdeal.S24, .f32⟩ : BufTy).Contents (Elt Ideal)) (i : Cert.ReferenceIdeal.S200000x24.Idx) :
    val_main_call2_v4 (F := Ideal) x0 x1 x2 x3 x4 x5 x6 x7 x8 i
      = (Finset.univ : Finset (Fin 24)).fold max ⊥ (fun k => val_main_v49 (F := Ideal) x0 x1 x2 x3 x4 x5 x6 x7 x8 (rowAtR i k)) := by
  rw [val_main_call2_v4_apply, val_main_call2_v3_apply, val_main_call2_v2_apply, val_main_call2_v1_apply, val_main_call2_cst_0_apply]
  unfold val_main_call2_v0
  generalize val_main_v49 (F := Ideal) x0 x1 x2 x3 x4 x5 x6 x7 x8 = Z
  rw [host_rowmax_apply, val_main_call2_cst_apply, ofBits_neg_inf]
  exact max_bot_left _
open Cert.ReferenceIdeal.ReadP in
set_option maxHeartbeats 400000 in
/-- The reference's log-softmax read at `i`, over its pre-activation `z`: `(z i − M) − log Σ_k exp (z (i₀,k) − M)`,
    `M` the maximum of row `i₀` from `−∞`; its sum starts from `0`. -/
theorem ref_logsoftmax_apply (x0 : (⟨Cert.ReferenceIdeal.S200000x26, .f32⟩ : BufTy).Contents (Elt Ideal)) (x1 x2 : (⟨Cert.ReferenceIdeal.S6400000, .i32⟩ : BufTy).Contents (Elt Ideal)) (x3 x4 : (⟨Cert.ReferenceIdeal.S26x40, .f32⟩ : BufTy).Contents (Elt Ideal)) (x5 : (⟨Cert.ReferenceIdeal.S40, .f32⟩ : BufTy).Contents (Elt Ideal)) (x6 x7 : (⟨Cert.ReferenceIdeal.S40x24, .f32⟩ : BufTy).Contents (Elt Ideal)) (x8 : (⟨Cert.ReferenceIdeal.S24, .f32⟩ : BufTy).Contents (Elt Ideal)) (i : Cert.ReferenceIdeal.S200000x24.Idx) :
    val_main_v50 (F := Ideal) x0 x1 x2 x3 x4 x5 x6 x7 x8 i
      = (val_main_v49 (F := Ideal) x0 x1 x2 x3 x4 x5 x6 x7 x8 i
            - (Finset.univ : Finset (Fin 24)).fold max ⊥ (fun k => val_main_v49 (F := Ideal) x0 x1 x2 x3 x4 x5 x6 x7 x8 (rowAtR i k)))
          - Ideal.log (∑ k : Fin 24, Ideal.exp (val_main_v49 (F := Ideal) x0 x1 x2 x3 x4 x5 x6 x7 x8 (rowAtR i k)
            - (Finset.univ : Finset (Fin 24)).fold max ⊥ (fun k => val_main_v49 (F := Ideal) x0 x1 x2 x3 x4 x5 x6 x7 x8 (rowAtR i k)))) := by
  rw [val_main_v50_apply, val_main_call2_v10_apply, val_main_call2_v9_apply, val_main_call2_v8_apply,
    val_main_call2_v7_apply, val_main_call2_cst_1_apply, val_main_call2_v5_apply, ref_rowmax_apply]
  show (_ - _) - Ideal.log (Ideal.ofBits .f32 0x00000000#32 + _) = _
  rw [Ideal.ofBits_zero_f32, zero_add]
  refine congrArg (fun s => (val_main_v49 (F := Ideal) x0 x1 x2 x3 x4 x5 x6 x7 x8 i
      - (Finset.univ : Finset (Fin 24)).fold max ⊥ (fun k => val_main_v49 (F := Ideal) x0 x1 x2 x3 x4 x5 x6 x7 x8 (rowAtR i k))) - Ideal.log s)
    (Finset.sum_congr rfl fun k _ => ?_)
  have hidx : idx_main_call2_v7 (idx_main_call2_v8 (idx_main_call2_v10 i)) k = rowAtR i k :=
    funext fun a => Fin.ext (by match a with | ⟨0, _⟩ => rfl | ⟨1, _⟩ => rfl)
  rw [hidx, val_main_call2_v6_apply, val_main_call2_v5_apply, ref_rowmax_apply]
  simp only [rowAtR_rowAtR]
  rfl

/-- The second layer's output block at block position `y` of grid point `t` is the reference's result at the array
    index `i = (t·20000 + y₀, y₁)`, when the two row blocks hold rows `t·20000 …` of the hidden layer and of its
    neighbour means, the weight blocks are the weights, and the bias block is the bias as one row. -/
theorem layer2_point (x0 : (⟨Cert.ReferenceIdeal.S200000x26, .f32⟩ : BufTy).Contents (Elt Ideal)) (x1 x2 : (⟨Cert.ReferenceIdeal.S6400000, .i32⟩ : BufTy).Contents (Elt Ideal)) (x3 x4 : (⟨Cert.ReferenceIdeal.S26x40, .f32⟩ : BufTy).Contents (Elt Ideal)) (x5 : (⟨Cert.ReferenceIdeal.S40, .f32⟩ : BufTy).Contents (Elt Ideal)) (x6 x7 : (⟨Cert.ReferenceIdeal.S40x24, .f32⟩ : BufTy).Contents (Elt Ideal)) (x8 : (⟨Cert.ReferenceIdeal.S24, .f32⟩ : BufTy).Contents (Elt Ideal))
    (t : ℕ)
    (b0 b1 : Vec Ideal S20000x40 .f32) (b2 b3 : Vec Ideal S40x24 .f32) (b4 : Vec Ideal S1x24 .f32)
    (h0 : ∀ (y : S20000x40.Idx) (i : Cert.ReferenceIdeal.S200000x40.Idx), (i 0).val = t * 20000 + (y 0).val → (i 1).val = (y 1).val → b0 y = Cert.ReferenceIdeal.ReadP.val_main_v30 (F := Ideal) x0 x1 x2 x3 x4 x5 i)
    (h1 : ∀ (y : S20000x40.Idx) (i : Cert.ReferenceIdeal.S200000x40.Idx), (i 0).val = t * 20000 + (y 0).val → (i 1).val = (y 1).val → b1 y = Cert.ReferenceIdeal.ReadP.val_main_v43 (F := Ideal) x0 x1 x2 x3 x4 x5 i)
    (h2 : ∀ (y : S40x24.Idx) (i : Cert.ReferenceIdeal.S40x24.Idx), (i 0).val = (y 0).val → (i 1).val = (y 1).val → b2 y = x6 i)
    (h3 : ∀ (y : S40x24.Idx) (i : Cert.ReferenceIdeal.S40x24.Idx), (i 0).val = (y 0).val → (i 1).val = (y 1).val → b3 y = x7 i)
    (h4 : ∀ (y : S1x24.Idx) (i : Cert.ReferenceIdeal.S24.Idx), (i 0).val = (y 1).val → b4 y = x8 i)
    (y : S20000x24.Idx) (i : Cert.ReferenceIdeal.S200000x24.Idx) (hi0 : (i 0).val = t * 20000 + (y 0).val) (hi1 : (i 1).val = (y 1).val) :
    out1_5 (F := Ideal) b0 b1 b2 b3 b4 y = Cert.ReferenceIdeal.ReadP.val_main_v50 (F := Ideal) x0 x1 x2 x3 x4 x5 x6 x7 x8 i := by
  -- the one store and the five loads are through whole-buffer rectangles at the origin
  have horigin : (![0, 0] : Fin 2 → Nat) = fun _ => 0 := funext fun a => by fin_cases a <;> rfl
  unfold out1_5
  rw [View.canon_unit_zero horigin]
  simp only [View.ld_unit_zero (S := S20000x40) horigin, View.ld_unit_zero (S := S40x24) horigin, View.ld_unit_zero (S := S1x24) horigin]
  -- both sides as the closed form over their own pre-activation
  rw [ref_logsoftmax_apply]
  refine (logsoftmax_block_apply (zBlock b0 b1 b2 b3 b4) _ _ _ _ _ _ y).trans ?_
  -- the pre-activations agree at `y` and along its row
  have hrow : ∀ k : Fin 24, zBlock b0 b1 b2 b3 b4 (rowAt y k)
      = Cert.ReferenceIdeal.ReadP.val_main_v49 (F := Ideal) x0 x1 x2 x3 x4 x5 x6 x7 x8 (rowAtR i k) :=
    fun k => zBlock_apply x0 x1 x2 x3 x4 x5 x6 x7 x8 t b0 b1 b2 b3 b4 h0 h1 h2 h3 h4 (rowAt y k) (rowAtR i k) hi0 rfl
  have hy : zBlock b0 b1 b2 b3 b4 y = Cert.ReferenceIdeal.ReadP.val_main_v49 (F := Ideal) x0 x1 x2 x3 x4 x5 x6 x7 x8 i :=
    zBlock_apply x0 x1 x2 x3 x4 x5 x6 x7 x8 t b0 b1 b2 b3 b4 h0 h1 h2 h3 h4 y i hi0 hi1
  simp only [hrow, hy]

end Cert.Sage

end
-- ==== Proof.Region1Value.lean ====
/- The second kernel's output array after its ten grid points.
   Point `t` reads rows `t·20000 …` of the first kernel's output — the reference's hidden layer, by the first region's
   value — and of its neighbour means, the whole layer-2 weights and the bias row, and writes back the same rows of the
   result. What it writes is, entry by entry, the reference's log-softmax result at that row and column (the point
   lemma); the ten row blocks tile the 200000 rows; so the result array ends holding the reference's result. -/
import proofs.«164080_j25606595019232_1_alg».proof.Proof.Gen.KernelIdeal.Frame
import proofs.«164080_j25606595019232_1_alg».proof.Proof.RefReadPatched
import proofs.«164080_j25606595019232_1_alg».proof.Proof.KernelEntries
import proofs.«164080_j25606595019232_1_alg».proof.Proof.Region0Value
import proofs.«164080_j25606595019232_1_alg».proof.Proof.Layer2Point
import Idealize.ShloMosaic.Lib.Pipeline.Value

set_option maxRecDepth 16384

noncomputable section

namespace Cert.Sage

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The reference's result of the launch contents of the arguments. -/
abbrev logits (c : Dev nD) : (⟨Cert.ReferenceIdeal.S200000x24, .f32⟩ : BufTy).Contents (Elt Ideal) :=
  Cert.ReferenceIdeal.ReadP.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The printed index maps over the ten points: the two row-block inputs and the output move with the point, the
    weights and the bias row stay at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

set_option maxHeartbeats 400000 in
/-- Window 0's block at point `t` (its rows of the first row array), read at a block position, whatever the region finds in its arrays (`V`):
    the array's entry at the position the block's offset gives. -/
theorem read1_0 (V : (c : Dev nD) → (b : Ref sig .tc) → Buf (Elt Ideal) ((c : Thread nD τ).loc b)) (c : Dev nD) (t : Fin cfg1.N)
    (A : (⟨Cert.ReferenceIdeal.S200000x40, .f32⟩ : BufTy).Contents (Elt Ideal)) (hA : V c (Pipeline.arrRef spec1 0) = A)
    (y : S20000x40.Idx) (i : Cert.ReferenceIdeal.S200000x40.Idx)
    (hi0 : (i 0).val = t.val * 20000 + (y 0).val) (hi1 : (i 1).val = (y 1).val) :
    iblk1 V c 0 t y = A i := by
  obtain ⟨e00, e01, e10, e11, e20, e21, e30, e31, e40, e41, e50, e51⟩ := idx1 t
  show V c (Pipeline.arrRef spec1 0) (((cfg1.win 0).blk t).view.emb y) = A i
  have he : ((cfg1.win 0).blk t).view.emb y = i := by
    funext a; apply Fin.ext
    match a with
    | ⟨0, _⟩ => show win1_0.index t (0 : Fin 2) * 20000 + 1 * (y 0).val = (i 0).val; omega
    | ⟨1, _⟩ => show win1_0.index t (1 : Fin 2) * 40 + 1 * (y 1).val = (i 1).val; omega
  rw [he, hA]

set_option maxHeartbeats 400000 in
/-- Window 1's block at point `t` (its rows of the second row array), read at a block position, whatever the region finds in its arrays (`V`):
    the array's entry at the position the block's offset gives. -/
theorem read1_1 (V : (c : Dev nD) → (b : Ref sig .tc) → Buf (Elt Ideal) ((c : Thread nD τ).loc b)) (c : Dev nD) (t : Fin cfg1.N)
    (A : (⟨Cert.ReferenceIdeal.S200000x40, .f32⟩ : BufTy).Contents (Elt Ideal)) (hA : V c (Pipeline.arrRef spec1 1) = A)
    (y : S20000x40.Idx) (i : Cert.ReferenceIdeal.S200000x40.Idx)
    (hi0 : (i 0).val = t.val * 20000 + (y 0).val) (hi1 : (i 1).val = (y 1).val) :
    iblk1 V c 1 t y = A i := by
  obtain ⟨e00, e01, e10, e11, e20, e21, e30, e31, e40, e41, e50, e51⟩ := idx1 t
  show V c (Pipeline.arrRef spec1 1) (((cfg1.win 1).blk t).view.emb y) = A i
  have he : ((cfg1.win 1).blk t).view.emb y = i := by
    funext a; apply Fin.ext
    match a with
    | ⟨0, _⟩ => show win1_1.index t (0 : Fin 2) * 20000 + 1 * (y 0).val = (i 0).val; omega
    | ⟨1, _⟩ => show win1_1.index t (1 : Fin 2) * 40 + 1 * (y 1).val = (i 1).val; omega
  rw [he, hA]

set_option maxHeartbeats 400000 in
/-- Window 2's block at point `t` (the whole first weight matrix), read at a block position, whatever the region finds in its arrays (`V`):
    the array's entry at the position the block's offset gives. -/
theorem read1_2 (V : (c : Dev nD) → (b : Ref sig .tc) → Buf (Elt Ideal) ((c : Thread nD τ).loc b)) (c : Dev nD) (t : Fin cfg1.N)
    (A : (⟨Cert.ReferenceIdeal.S40x24, .f32⟩ : BufTy).Contents (Elt Ideal)) (hA : V c (Pipeline.arrRef spec1 2) = A)
    (y : S40x24.Idx) (i : Cert.ReferenceIdeal.S40x24.Idx)
    (hi0 : (i 0).val = (y 0).val) (hi1 : (i 1).val = (y 1).val) :
    iblk1 V c 2 t y = A i := by
  obtain ⟨e00, e01, e10, e11, e20, e21, e30, e31, e40, e41, e50, e51⟩ := idx1 t
  show V c (Pipeline.arrRef spec1 2) (((cfg1.win 2).blk t).view.emb y) = A i
  have he : ((cfg1.win 2).blk t).view.emb y = i := by
    funext a; apply Fin.ext
    match a with
    | ⟨0, _⟩ => show win1_2.index t (0 : Fin 2) * 40 + 1 * (y 0).val = (i 0).val; omega
    | ⟨1, _⟩ => show win1_2.index t (1 : Fin 2) * 24 + 1 * (y 1).val = (i 1).val; omega
  rw [he, hA]

set_option maxHeartbeats 400000 in
/-- Window 3's block at point `t` (the whole second weight matrix), read at a block position, whatever the region finds in its arrays (`V`):
    the array's entry at the position the block's offset gives. -/
theorem read1_3 (V : (c : Dev nD) → (b : Ref sig .tc) → Buf (Elt Ideal) ((c : Thread nD τ).loc b)) (c : Dev nD) (t : Fin cfg1.N)
    (A : (⟨Cert.ReferenceIdeal.S40x24, .f32⟩ : BufTy).Contents (Elt Ideal)) (hA : V c (Pipeline.arrRef spec1 3) = A)
    (y : S40x24.Idx) (i : Cert.ReferenceIdeal.S40x24.Idx)
    (hi0 : (i 0).val = (y 0).val) (hi1 : (i 1).val = (y 1).val) :
    iblk1 V c 3 t y = A i := by
  obtain ⟨e00, e01, e10, e11, e20, e21, e30, e31, e40, e41, e50, e51⟩ := idx1 t
  show V c (Pipeline.arrRef spec1 3) (((cfg1.win 3).blk t).view.emb y) = A i
  have he : ((cfg1.win 3).blk t).view.emb y = i := by
    funext a; apply Fin.ext
    match a with
    | ⟨0, _⟩ => show win1_3.index t (0 : Fin 2) * 40 + 1 * (y 0).val = (i 0).val; omega
    | ⟨1, _⟩ => show win1_3.index t (1 : Fin 2) * 24 + 1 * (y 1).val = (i 1).val; omega
  rw [he, hA]

set_option maxHeartbeats 400000 in
/-- Window 4's block at point `t` (the bias as one row), read at a block position, whatever the region finds in its arrays (`V`):
    the array's entry at the position the block's offset gives. -/
theorem read1_4 (V : (c : Dev nD) → (b : Ref sig .tc) → Buf (Elt Ideal) ((c : Thread nD τ).loc b)) (c : Dev nD) (t : Fin cfg1.N)
    (A : (⟨Cert.ReferenceIdeal.S1x24, .f32⟩ : BufTy).Contents (Elt Ideal)) (hA : V c (Pipeline.arrRef spec1 4) = A)
    (y : S1x24.Idx) (i : Cert.ReferenceIdeal.S1x24.Idx)
    (hi0 : (i 0).val = (y 0).val) (hi1 : (i 1).val = (y 1).val) :
    iblk1 V c 4 t y = A i := by
  obtain ⟨e00, e01, e10, e11, e20, e21, e30, e31, e40, e41, e50, e51⟩ := idx1 t
  show V c (Pipeline.arrRef spec1 4) (((cfg1.win 4).blk t).view.emb y) = A i
  have he : ((cfg1.win 4).blk t).view.emb y = i := by
    funext a; apply Fin.ext
    match a with
    | ⟨0, _⟩ => show win1_4.index t (0 : Fin 2) * 1 + 1 * (y 0).val = (i 0).val; omega
    | ⟨1, _⟩ => show win1_4.index t (1 : Fin 2) * 24 + 1 * (y 1).val = (i 1).val; omega
  rw [he, hA]

set_option maxHeartbeats 400000 in
/-- WHAT POINT `t` WRITES BACK is block `t` of that array. -/
theorem flushed1 (c : Dev nD) (t : Fin cfg1.N) :
    (dat1 (V5 m ρ) c).flushed 5 t = ((cfg1.win 5).blk t).view.read (Elt Ideal) (logits m c) := by
  show (cfg1.win 5).cut (grid1.coords t) ((dat1 (V5 m ρ) c).after 5 t) = _
  rw [after1_5]
  obtain ⟨e00, e01, e10, e11, e20, e21, e30, e31, e40, e41, e50, e51⟩ := idx1 t
  funext j
  show out1_5 (F := Ideal) (iblk1 (V5 m ρ) c 0 t) (iblk1 (V5 m ρ) c 1 t) (iblk1 (V5 m ρ) c 2 t) (iblk1 (V5 m ρ) c 3 t) (iblk1 (V5 m ρ) c 4 t) j
      = logits m c (((cfg1.win 5).blk t).view.emb j)
  exact layer2_point (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) t.val
    (iblk1 (V5 m ρ) c 0 t) (iblk1 (V5 m ρ) c 1 t) (iblk1 (V5 m ρ) c 2 t) (iblk1 (V5 m ρ) c 3 t) (iblk1 (V5 m ρ) c 4 t)
    (read1_0 (V5 m ρ) c t (hidden m c) ((entry1_hidden m ρ c).trans (final0 m ρ c)))
    (read1_1 (V5 m ρ) c t (Cert.ReferenceIdeal.ReadP.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (entry1_agg m ρ c _ _ _ (mid_hidden m ρ c)))
    (read1_2 (V5 m ρ) c t (m ((c : Thread nD τ).loc main_arg6)) (entry1_arg6 m ρ c))
    (read1_3 (V5 m ρ) c t (m ((c : Thread nD τ).loc main_arg7)) (entry1_arg7 m ρ c))
    (fun y i hi => (read1_4 (V5 m ρ) c t (V5 m ρ c main_v39) rfl y y rfl rfl).trans (entry1_bias m ρ c y i hi))
    j (((cfg1.win 5).blk t).view.emb j)
    (by show win1_5.index t (0 : Fin 2) * 20000 + 1 * (j 0).val = t.val * 20000 + (j 0).val; omega)
    (by show win1_5.index t (1 : Fin 2) * 24 + 1 * (j 1).val = (j 1).val; omega)

/-- An index of the output array is in point `t`'s block iff each coordinate is in the block's range on its axis. -/
theorem mem_blk1 (t : Fin cfg1.N) (i : S200000x24.Idx) :
    i ∈ ((cfg1.win 5).blk t).view.set ↔ ∀ a : Fin 2, win1_5.index t a * S20000x24.size a ≤ (i a).val ∧ (i a).val < win1_5.index t a * S20000x24.size a + S20000x24.size a := by
  show i ∈ ((View.whole main_v40).slice (win1_5.rect t)).set ↔ _
  rw [View.set_slice_whole, Rect.mem_set_unit]
  exact Iff.rfl

/-- Every row is in the block of the point `row / 20000`. -/
theorem cover1 (i : S200000x24.Idx) :
    ∃ t : Fin cfg1.N, (cfg1.win 5).flush t = true ∧ i ∈ ((cfg1.win 5).blk t).view.set := by
  have hi0 : (i 0).val < 200000 := (i 0).isLt
  have hi1 : (i 1).val < 24 := (i 1).isLt
  have hN : cfg1.N = 10 := N_1
  obtain ⟨t, ht⟩ : ∃ t : Fin cfg1.N, t.val = (i 0).val / 20000 := ⟨⟨(i 0).val / 20000, by rw [hN]; omega⟩, rfl⟩
  obtain ⟨-, -, -, -, -, -, -, -, -, -, e50, e51⟩ := idx1 t
  refine ⟨t, flush1_5 t, ?_⟩
  rw [mem_blk1]
  intro a
  match a with
  | ⟨0, _⟩ => show win1_5.index t (0 : Fin 2) * 20000 ≤ (i 0).val ∧ (i 0).val < win1_5.index t (0 : Fin 2) * 20000 + 20000; omega
  | ⟨1, _⟩ => show win1_5.index t (1 : Fin 2) * 24 ≤ (i 1).val ∧ (i 1).val < win1_5.index t (1 : Fin 2) * 24 + 24; omega

/-- THE ARRAY after the region's ten points. -/
theorem final1 (c : Dev nD) : (dat1 (V5 m ρ) c).arrAt 5 cfg1.N = logits m c :=
  (dat1 (V5 m ρ) c).arrAt_eq_of_cover 5 (logits m c) (fun t _ => flushed1 m ρ c t) (cover1)

/-- So at the end of @main the result buffer holds the reference's result. -/
theorem result_value (c : Dev nD) : W6 m ρ c (Proc.devRef .tc main_v40) = logits m c :=
  (W6_arr m ρ c 5).trans (final1 m ρ c)

end Cert.Sage

end
-- ==== Proof.lean ====
/- The certificate of a two-layer mean-aggregating graph network: two Pallas kernels (one per layer) among host
   gathers and scatter-adds, against the same network written in plain jnp.

   Both programs first count in-degrees by scatter-adding ones along the destination indices and take the reciprocal
   (zero where a node has no in-edge); both form a layer's neighbour means by gathering rows at the (wrapped) source
   indices, scatter-adding them by destination and scaling by that reciprocal — the kernel program's host operations
   are, operation for operation, the reference's. A layer is then `x · W_self + mean · W_neigh + b`, followed by
   `max (·, 0)` in layer 1 and by a log-softmax over the 24 columns in layer 2.

   The kernels compute a layer for 20000 rows at a time: a grid of ten points, each reading its rows of the two row
   arrays, the whole weight matrices and the bias as one row, and writing back the same rows. On the extended reals the
   narrowing to bf16 before each product is the identity, a product into a zero accumulator is the sum over the
   contracted axis, and a row's entries depend on that row only — so each block the kernel writes is the block of the
   reference's layer (the two point lemmas), the ten row blocks tile the 200000 rows, and the first kernel's output
   array is the reference's hidden layer; the host's second round of gather and scatter-add then produces the
   reference's layer-2 neighbour means, and the second kernel's output array is the reference's result. The only two
   places the texts differ in layer 2: the reference clamps the row maximum against −∞ once more (`max (−∞, M) = M`),
   and its row sum starts from an explicit zero. No law of arithmetic beyond those is used, so the precondition
   (finite inputs) is never opened.

   The frames of the two kernel programs are the generated ones. The reference is a straight line of 81 host operations:
   its run terminates with every buffer at the operations' fold over the launch contents (the frame drops the result),
   and the fold at the result buffer is read, stretch by stretch, as the last of the reference's stage functions of its
   arguments. The idealization rewrote no operation: `preserves` has nothing to say. -/
import proofs.«164080_j25606595019232_1_alg».proof.Defs
import proofs.«164080_j25606595019232_1_alg».proof.Proof.Gen.Kernel
import proofs.«164080_j25606595019232_1_alg».proof.Proof.Gen.Kernel.Skeleton
import proofs.«164080_j25606595019232_1_alg».proof.Proof.Gen.Kernel.Launch
import proofs.«164080_j25606595019232_1_alg».proof.Proof.Gen.Kernel.Points
import proofs.«164080_j25606595019232_1_alg».proof.Proof.Gen.Kernel.Frame
import proofs.«164080_j25606595019232_1_alg».proof.Proof.Gen.KernelIdeal
import proofs.«164080_j25606595019232_1_alg».proof.Proof.Gen.KernelIdeal.Skeleton
import proofs.«164080_j25606595019232_1_alg».proof.Proof.Gen.KernelIdeal.Launch
import proofs.«164080_j25606595019232_1_alg».proof.Proof.Gen.KernelIdeal.Points
import proofs.«164080_j25606595019232_1_alg».proof.Proof.Gen.KernelIdeal.Frame
import proofs.«164080_j25606595019232_1_alg».proof.Proof.Gen.ReferenceIdeal
import proofs.«164080_j25606595019232_1_alg».proof.Proof.Gen.Pre_finite_inputs
import proofs.«164080_j25606595019232_1_alg».proof.Proof.RunNamed
import proofs.«164080_j25606595019232_1_alg».proof.Proof.RefRunPatched
import proofs.«164080_j25606595019232_1_alg».proof.Proof.RefReadPatched
import proofs.«164080_j25606595019232_1_alg».proof.Proof.RefStages
import proofs.«164080_j25606595019232_1_alg».proof.Proof.Region1Value
import Idealize.ShloMosaic.Adequacy
import Idealize.ShloMosaic.Init

noncomputable section

namespace Cert.Proof

open Idealize.ShloMosaic Idealize.SL.Sem Cert.Kernel

/-- The word-level kernel program runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote nothing. -/
theorem preserves : Cert.preserves_Kernel_KernelIdeal := trivial

/-- From memories that agree on the nine arguments both programs end with the reference's result function of those
    arguments in their result arrays: the kernel program by the two regions' values, the reference by its stages. -/
theorem algebraic : Cert.algebraic_KernelIdeal_ReferenceIdeal := by
  intro m ρ m' ρ' _ hagree
  refine ⟨fun c => Cert.Sage.logits m c, ?_, ?_⟩
  · exact (θ_run Cert.KernelIdeal.defs _ _).mono
      (fun r h c => ⟨(h c).1.trans (Cert.Sage.result_value m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.RunP.run (F := Ideal) m' ρ')
    rw [Cert.ReferenceIdeal.Stages.result_eq]
    obtain ⟨a0, a1, a2, a3, a4, a5, a6, a7, a8⟩ := hagree c
    show Cert.ReferenceIdeal.ReadP.val_main_v50 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
        = Cert.ReferenceIdeal.ReadP.val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
    rw [a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
